-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S200000x117 : S_.BroadcastsInDim S200000x117 (![] : Fin 0 → Fin S200000x117.rank)
  reducesTo_S200000x117_S_d0_1 : S200000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg5 : FVec F S3x128x128 .f32) (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S200000x117 .f32) (main_arg1 : IVec S2x600000 32) (main_arg2 : FVec F S117x128 .f32) (main_arg3 : FVec F S128 .f32) (main_arg4 : FVec F S3x128x128 .f32) (main_arg5 : FVec F S3x128x128 .f32) (main_arg6 : FVec F S3x128 .f32) : IVec S_ 1 :=
  let main_v0 : FVec F S200000x117 .f32 := Host.absf main_arg0
  let main_cst : FVec F S_ .f32 := constant S_ .f32 0x7F800000#32
  let main_v1 : FVec F S200000x117 .f32 := broadcastInDim S200000x117 ![] bcast_S_S200000x117 main_cst
  let main_v2 : IVec S200000x117 1 := cmpf .olt main_v0 main_v1
  let main_c : IVec S_ 1 := constantI S_ 1 1#1
  let main_v3 : IVec S_ 1 := (fun x v => Host.reduce IntOp.andi x v reducesTo_S200000x117_S_d0_1 h_S_) main_v2 main_c
  let main_v4 : FVec F S117x128 .f32 := Host.absf main_arg2
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S1x128 : Shape := ⟨2, ![1, 128]⟩
abbrev S200000x128 : Shape := ⟨2, ![200000, 128]⟩
abbrev S8000x117 : Shape := ⟨2, ![8000, 117]⟩
abbrev S8000x128 : Shape := ⟨2, ![8000, 128]⟩
abbrev S600000x128 : Shape := ⟨2, ![600000, 128]⟩
abbrev S200000x1 : Shape := ⟨2, ![200000, 1]⟩
abbrev S1x128x128 : Shape := ⟨3, ![1, 128, 128]⟩
abbrev S128x128 : Shape := ⟨2, ![128, 128]⟩

abbrev nBuf : Space → Nat
  | .hbm => 97
  | .vmem => 33
  | .smem => 0
  | _ => 0

abbrev bufTy : (tb : Table) → Fin (tcTables nBuf tb) → BufTy
  | .hbm, ⟨0, _⟩ => ⟨S200000x117, .f32⟩
  | .hbm, ⟨1, _⟩ => ⟨S2x600000, .i32⟩
  | .hbm, ⟨2, _⟩ => ⟨S117x128, .f32⟩
  | .hbm, ⟨3, _⟩ => ⟨S128, .f32⟩
  | .hbm, ⟨4, _⟩ => ⟨S3x128x128, .f32⟩
  | .hbm, ⟨5, _⟩ => ⟨S3x128x128, .f32⟩
  | .hbm, ⟨6, _⟩ => ⟨S3x128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S200000, .f32⟩
  | .hbm, ⟨15, _⟩ => ⟨S600000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S1x128, .f32⟩
  | .hbm, ⟨24, _⟩ => ⟨S200000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S200000x128, .f32⟩
  | .hbm, ⟨36, _⟩ => ⟨S600000x1, .i32⟩
  | .hbm, ⟨37, _⟩ => ⟨S200000x128, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S200000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S200000x128, .f32⟩
  | .hbm, ⟨60, _⟩ => ⟨S600000x1, .i32⟩
  | .hbm, ⟨61, _⟩ => ⟨S200000x128, .f32⟩
  | .hbm, ⟨62, _⟩ => ⟨S200000x1, .f32⟩
  | .hbm, ⟨63, _⟩ => ⟨S200000x128, .f32⟩
  | .hbm, ⟨64, _⟩ => ⟨S200000x128, .f32⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S200000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S200000x128, .f32⟩
  | .hbm, ⟨84, _⟩ => ⟨S600000x1, .i32⟩
  | .hbm, ⟨85, _⟩ => ⟨S200000x128, .f32⟩
  | .hbm, ⟨86, _⟩ => ⟨S200000x1, .f32⟩
  | .hbm, ⟨87, _⟩ => ⟨S200000x128, .f32⟩
  | .hbm, ⟨88, _⟩ => ⟨S200000x128, .f32⟩
  | .hbm, ⟨89, _⟩ => ⟨S1x128x128, .f32⟩
  | .hbm, ⟨90, _⟩ => ⟨S128x128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S200000x128, .f32⟩
  | .local _ .vmem, ⟨0, _⟩ => ⟨S8000x117, .f32⟩
  | .local _ .vmem, ⟨1, _⟩ => ⟨S8000x117, .f32⟩
  | .local _ .vmem, ⟨2, _⟩ => ⟨S117x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S8000x128, .f32⟩
  | .local _ .vmem, ⟨32, _⟩ => ⟨S8000x128, .f32⟩
  | _, _ => ⟨S200000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_8 : Ref sig .tc := ⟨.hbm, 73, rfl⟩
abbrev main_v56 : Ref sig .tc := ⟨.hbm, 74, rfl⟩
abbrev main_v57 : Ref sig .tc := ⟨.hbm, 75, rfl⟩
abbrev main_c_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S117x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  shapeCasts_S128_S1x128 : S128.ShapeCasts S1x128
  inb_S8000x117_S8000x117_0_0 : ∀ a, (![0, 0] : Fin 2 → Nat) a + S8000x117.size a ≤ S8000x117.size a
  h_S8000x117 : 0 < S8000x117.numel
  bitsLt_bf16_f32 : FTy.bits .bf16 < FTy.bits .f32
  inb_S117x128_S117x128_0_0 : ∀ a, (![0, 0] : Fin 2 → Nat) a + S117x128.size a ≤ S117x128.size a
  h_S117x128 : 0 < S117x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S200000_S600000x1_S600000_n_0_0_1_wf : ScatterDims.WF S200000 S600000x1 S600000 [] [0] [0] 1
  dot_S8000x117_S117x128_S8000x128_1_0_0_1_n_n_wf : DotDims.WF S8000x117 S117x128 S8000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x117.size a ≤ S200000x117.size a
  hwx0_0 : ∀ i : grid0.Coords, EltTy.bits .f32 = 32 ∨ (Rect.block (s := S200000x117) S8000x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S117x128.size a ≤ S117x128.size a
  hwx0_1 : ∀ i : grid0.Coords, EltTy.bits .f32 = 32 ∨ (Rect.block (s := S117x128) S117x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S200000x128.size a
  hwx0_3 : ∀ i : grid0.Coords, EltTy.bits .f32 = 32 ∨ (Rect.block (s := S200000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S200000x128.size a
  hwx1_1 : ∀ i : grid1.Coords, EltTy.bits .f32 = 32 ∨ (Rect.block (s := S200000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S200000x128.size a
  hwx1_5 : ∀ i : grid1.Coords, EltTy.bits .f32 = 32 ∨ (Rect.block (s := S200000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S200000x128.size a
  hwx2_0 : ∀ i : grid2.Coords, EltTy.bits .f32 = 32 ∨ (Rect.block (s := S200000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S200000x128.size a
  hwx2_1 : ∀ i : grid2.Coords, EltTy.bits .f32 = 32 ∨ (Rect.block (s := S200000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S200000x128.size a
  hwx2_5 : ∀ i : grid2.Coords, EltTy.bits .f32 = 32 ∨ (Rect.block (s := S200000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S200000x128.size a
  hwx3_0 : ∀ i : grid3.Coords, EltTy.bits .f32 = 32 ∨ (Rect.block (s := S200000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S200000x128.size a
  hwx3_1 : ∀ i : grid3.Coords, EltTy.bits .f32 = 32 ∨ (Rect.block (s := S200000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x128.size a ≤ S200000x128.size a
  hwx3_5 : ∀ i : grid3.Coords, EltTy.bits .f32 = 32 ∨ (Rect.block (s := S200000x128) S8000x128.size (cc3_transform_5 i) (hinb3_5 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S8000x117_S117x128_S8000x128_1_0_0_1_n_n : DotDims S8000x117 S117x128 S8000x128 where
  lhsContracting := [1]
  rhsContracting := [0]
  lhsNonContracting := [0]
  rhsNonContracting := [1]
  lhsBatch := []
  rhsBatch := []
  wf := dot_S8000x117_S117x128_S8000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S8000x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S117x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S8000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x117 : Shape := ⟨2, ![200000, 117]⟩
abbrev S2x600000 : Shape := ⟨2, ![2, 600000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S200000x128 : Shape := ⟨2, ![200000, 128]⟩
abbrev S1x128 : Shape := ⟨2, ![1, 128]⟩
abbrev S1x600000 : Shape := ⟨2, ![1, 600000]⟩
abbrev S600000 : Shape := ⟨1, ![600000]⟩
abbrev S_ : Shape := ⟨0, ![]⟩
abbrev S200000 : Shape := ⟨1, ![200000]⟩
abbrev S600000x1 : Shape := ⟨2, ![600000, 1]⟩
abbrev S600000x128 : Shape := ⟨2, ![600000, 128]⟩
abbrev S200000x1 : Shape := ⟨2, ![200000, 1]⟩
abbrev S1x128x128 : Shape := ⟨3, ![1, 128, 128]⟩
abbrev S128x128 : Shape := ⟨2, ![128, 128]⟩

abbrev nBuf : Space → Nat
  | .hbm => 118
  | .vmem => 0
  | .smem => 0
  | _ => 0

abbrev bufTy : (tb : Table) → Fin (tcTables nBuf tb) → BufTy
  | .hbm, ⟨0, _⟩ => ⟨S200000x117, .f32⟩
  | .hbm, ⟨1, _⟩ => ⟨S2x600000, .i32⟩
  | .hbm, ⟨2, _⟩ => ⟨S117x128, .f32⟩
  | .hbm, ⟨3, _⟩ => ⟨S128, .f32⟩
  | .hbm, ⟨4, _⟩ => ⟨S3x128x128, .f32⟩
  | .hbm, ⟨5, _⟩ => ⟨S3x128x128, .f32⟩
  | .hbm, ⟨6, _⟩ => ⟨S3x128, .f32⟩
  | .hbm, ⟨7, _⟩ => ⟨S200000x128, .f32⟩
  | .hbm, ⟨8, _⟩ => ⟨S1x128, .f32⟩
  | .hbm, ⟨9, _⟩ => ⟨S200000x128, .f32⟩
  | .hbm, ⟨10, _⟩ => ⟨S200000x128, .f32⟩
  | .hbm, ⟨11, _⟩ => ⟨S200000x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S200000, .f32⟩
  | .hbm, ⟨20, _⟩ => ⟨S600000x1, .i32⟩
  | .hbm, ⟨21, _⟩ => ⟨S200000, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S200000x128, .f32⟩
  | .hbm, ⟨39, _⟩ => ⟨S600000x1, .i32⟩
  | .hbm, ⟨40, _⟩ => ⟨S200000x128, .f32⟩
  | .hbm, ⟨41, _⟩ => ⟨S200000x1, .f32⟩
  | .hbm, ⟨42, _⟩ => ⟨S200000x128, .f32⟩
  | .hbm, ⟨43, _⟩ => ⟨S200000x128, .f32⟩
  | .hbm, ⟨44, _⟩ => ⟨S1x128x128, .f32⟩
  | .hbm, ⟨45, _⟩ => ⟨S128x128, .f32⟩
  | .hbm, ⟨46, _⟩ => ⟨S200000x128, .f32⟩
  | .hbm, ⟨47, _⟩ => ⟨S1x128x128, .f32⟩
  | .hbm, ⟨48, _⟩ => ⟨S128x128, .f32⟩
  | .hbm, ⟨49, _⟩ => ⟨S200000x128, .f32⟩
  | .hbm, ⟨50, _⟩ => ⟨S200000x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S200000x128, .f32⟩
  | .hbm, ⟨55, _⟩ => ⟨S200000x128, .f32⟩
  | .hbm, ⟨56, _⟩ => ⟨S_, .f32⟩
  | .hbm, ⟨57, _⟩ => ⟨S200000x128, .f32⟩
  | .hbm, ⟨58, _⟩ => ⟨S200000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S200000x128, .f32⟩
  | .hbm, ⟨70, _⟩ => ⟨S600000x1, .i32⟩
  | .hbm, ⟨71, _⟩ => ⟨S200000x128, .f32⟩
  | .hbm, ⟨72, _⟩ => ⟨S200000x1, .f32⟩
  | .hbm, ⟨73, _⟩ => ⟨S200000x128, .f32⟩
  | .hbm, ⟨74, _⟩ => ⟨S200000x128, .f32⟩
  | .hbm, ⟨75, _⟩ => ⟨S1x128x128, .f32⟩
  | .hbm, ⟨76, _⟩ => ⟨S128x128, .f32⟩
  | .hbm, ⟨77, _⟩ => ⟨S200000x128, .f32⟩
  | .hbm, ⟨78, _⟩ => ⟨S1x128x128, .f32⟩
  | .hbm, ⟨79, _⟩ => ⟨S128x128, .f32⟩
  | .hbm, ⟨80, _⟩ => ⟨S200000x128, .f32⟩
  | .hbm, ⟨81, _⟩ => ⟨S200000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S200000x128, .f32⟩
  | .hbm, ⟨86, _⟩ => ⟨S200000x128, .f32⟩
  | .hbm, ⟨87, _⟩ => ⟨S_, .f32⟩
  | .hbm, ⟨88, _⟩ => ⟨S200000x128, .f32⟩
  | .hbm, ⟨89, _⟩ => ⟨S200000x128, .f32⟩
  | .hbm, ⟨90, _⟩ => ⟨S_, .i32⟩
  | .hbm, ⟨91, _⟩ => ⟨S600000, .i32⟩
  | .hbm, ⟨92, _⟩ => ⟨S600000, .i1⟩
  | .hbm, ⟨93, _⟩ => ⟨S_, .i32⟩
  | .hbm, ⟨94, _⟩ => ⟨S600000, .i32⟩
  | .hbm, ⟨95, _⟩ => ⟨S600000, .i32⟩
  | .hbm, ⟨96, _⟩ => ⟨S600000, .i32⟩
  | .hbm, ⟨97, _⟩ => ⟨S600000x1, .i32⟩
  | .hbm, ⟨98, _⟩ => ⟨S600000x128, .f32⟩
  | .hbm, ⟨99, _⟩ => ⟨S_, .f32⟩
  | .hbm, ⟨100, _⟩ => ⟨S200000x128, .f32⟩
  | .hbm, ⟨101, _⟩ => ⟨S600000x1, .i32⟩
  | .hbm, ⟨102, _⟩ => ⟨S200000x128, .f32⟩
  | .hbm, ⟨103, _⟩ => ⟨S200000x1, .f32⟩
  | .hbm, ⟨104, _⟩ => ⟨S200000x128, .f32⟩
  | .hbm, ⟨105, _⟩ => ⟨S200000x128, .f32⟩
  | .hbm, ⟨106, _⟩ => ⟨S1x128x128, .f32⟩
  | .hbm, ⟨107, _⟩ => ⟨S128x128, .f32⟩
  | .hbm, ⟨108, _⟩ => ⟨S200000x128, .f32⟩
  | .hbm, ⟨109, _⟩ => ⟨S1x128x128, .f32⟩
  | .hbm, ⟨110, _⟩ => ⟨S128x128, .f32⟩
  | .hbm, ⟨111, _⟩ => ⟨S200000x128, .f32⟩
  | .hbm, ⟨112, _⟩ => ⟨S200000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S200000x128, .f32⟩
  | .hbm, ⟨117, _⟩ => ⟨S200000x128, .f32⟩
  | _, _ => ⟨S200000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_cst : Ref sig .tc := ⟨.hbm, 56, rfl⟩
abbrev main_call0_v0 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call1_cst : Ref sig .tc := ⟨.hbm, 87, rfl⟩
abbrev main_call1_v0 : Ref sig .tc := ⟨.hbm, 88, rfl⟩
abbrev main_v68 : Ref sig .tc := ⟨.hbm, 89, rfl⟩
abbrev main_c_8 : Ref sig .tc := ⟨.hbm, 90, rfl⟩
abbrev main_v69 : Ref sig .tc := ⟨.hbm, 91, rfl⟩
abbrev main_v70 : Ref sig .tc := ⟨.hbm, 92, rfl⟩
abbrev main_c_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S200000x117_S117x128_S200000x128_1_0_0_1_n_n_wf : DotDims.WF S200000x117 S117x128 S200000x128 [1] [0] [0] [1] [] []
  scatter_S200000_S600000x1_S600000_n_0_0_1_wf : ScatterDims.WF S200000 S600000x1 S600000 [] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []

variable [Facts₀]

def dot_S200000x117_S117x128_S200000x128_1_0_0_1_n_n : DotDims S200000x117 S117x128 S200000x128 where
  lhsContracting := [1]
  rhsContracting := [0]
  lhsNonContracting := [0]
  rhsNonContracting := [1]
  lhsBatch := []
  rhsBatch := []
  wf := dot_S200000x117_S117x128_S200000x128_1_0_0_1_n_n_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.Spec.lean ====
/-
  The two programs' dense stages as whole-array functions, and what one grid point of each kernel computes, entry by entry.

  Nodes are the rows of a [200000, K] array; a kernel handles 8000 rows per grid point, so entry (p, q) of point t's block is
  entry (8000·t + p, q) of the array. `projSpec` is tanh(x·W + b) and `linSpec` is (h·Ws + agg·Wn) + b, both written with the
  host's operations (a matrix product as `dot_general`, the bias row broadcast over the rows); `reluSpec` is the entrywise
  maximum with zero. The point lemmas say: if a kernel's row blocks are the rows 8000·t … 8000·t + 7999 of the whole arrays, then the
  block it stores is the same rows of the whole-array function. Over the extended reals a matrix product's entry is a finite sum
  of products whichever program states it, and a change of float format is the identity, so both sides are the same sum.
-/
import proofs.«176199_j57097295233646_1_alg».proof.Proof.Gen.KernelIdeal.Skeleton
import proofs.«176199_j57097295233646_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Hand

open Idealize.ShloMosaic Idealize.ShloMosaic.TcCoe
open Cert.KernelIdeal (S8000x117 S8000x128 S117x128 S128x128 S1x128 S200000x117 S200000x128 S128 S_)
open Cert.KernelIdeal.Gen (k0_pay1 k1_pay1 k2_pay1 k3_pay1)
open Idealize.ShloMosaic.ValueIdx (ix1 ix2)

section Specs
variable {F : FTy → Type} [FloatOps F]

/-- tanh(x·W + b): the input projection on all 200000 nodes, the bias given as a [1,128] row. -/
def projSpec (x : (⟨S200000x117, .f32⟩ : BufTy).Contents (Elt F)) (w : (⟨S117x128, .f32⟩ : BufTy).Contents (Elt F))
    (b2 : (⟨S1x128, .f32⟩ : BufTy).Contents (Elt F)) : (⟨S200000x128, .f32⟩ : BufTy).Contents (Elt F) :=
  Host.tanh (addf (Host.dotGeneral Cert.ReferenceIdeal.dot_S200000x117_S117x128_S200000x128_1_0_0_1_n_n none x w)
    (broadcastInDim S200000x128 ![0, 1] Cert.ReferenceIdeal.Facts₀.bcast_S1x128_S200000x128_0_1 b2))

/-- (h·Ws + agg·Wn) + b: one layer's combination on all nodes before the activation, the bias given as a [1,128] row. -/
def linSpec (h a : (⟨S200000x128, .f32⟩ : BufTy).Contents (Elt F)) (ws wn : (⟨S128x128, .f32⟩ : BufTy).Contents (Elt F))
    (b2 : (⟨S1x128, .f32⟩ : BufTy).Contents (Elt F)) : (⟨S200000x128, .f32⟩ : BufTy).Contents (Elt F) :=
  addf (addf (Host.dotGeneral Cert.ReferenceIdeal.dot_S200000x128_S128x128_S200000x128_1_0_0_1_n_n none h ws)
      (Host.dotGeneral Cert.ReferenceIdeal.dot_S200000x128_S128x128_S200000x128_1_0_0_1_n_n none a wn))
    (broadcastInDim S200000x128 ![0, 1] Cert.ReferenceIdeal.Facts₀.bcast_S1x128_S200000x128_0_1 b2)

/-- max(y, 0) entrywise. -/
def reluSpec (y : (⟨S200000x128, .f32⟩ : BufTy).Contents (Elt F)) : (⟨S200000x128, .f32⟩ : BufTy).Contents (Elt F) :=
  maximumf y (broadcastInDim S200000x128 ![] Cert.ReferenceIdeal.Facts₀.bcast_S_S200000x128 (constant S_ .f32 0x00000000#32))

end Specs

/-! ### A matrix product's entry as a sum over the contracted axis -/

/-- For a product of an [M,K] by a [K,N] array whose dimension numbers contract the left operand's axis 1 with the right operand's
    axis 0 (the four hypotheses on the operand indices say exactly that), the sum over the contraction index at output entry `i`
    is the sum over `k < K` of left(i₀, k) · right(k, i₁). -/
theorem dot_sum_plain {M K N : ℕ} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (i : (⟨2, ![M, N]⟩ : Shape).Idx) :
    ∑ q : d.contr.Idx, l (d.lhsIdx i q) * r (d.rhsIdx i q)
      = ∑ k : Fin K, l (ix2 ⟨(i 0).val, (i 0).isLt⟩ k) * r (ix2 k ⟨(i 1).val, (i 1).isLt⟩) := by
  rw [← Equiv.sum_comp (ValueIdx.contrEquiv1 d K hr hs).symm]
  refine Finset.sum_congr rfl fun k _ => ?_
  have hk := ValueIdx.contrEquiv1_symm_val d K hr hs k
  have el : d.lhsIdx i ((ValueIdx.contrEquiv1 d K hr hs).symm k) = ix2 ⟨(i 0).val, (i 0).isLt⟩ k := funext fun a => Fin.ext (by
    match a with
    | ⟨0, _⟩ => exact hl0 _ _
    | ⟨1, _⟩ => exact (hl1 _ _).trans hk)
  have er : d.rhsIdx i ((ValueIdx.contrEquiv1 d K hr hs).symm k) = ix2 k ⟨(i 1).val, (i 1).isLt⟩ := funext fun a => Fin.ext (by
    match a with
    | ⟨0, _⟩ => exact (hr0 _ _).trans hk
    | ⟨1, _⟩ => exact hr1 _ _)
  rw [el, er]
  rfl

/-! ### The four products' operand indices, axis by axis

For each of the four dimension-number records (the two kernels' products on an 8000-row block, the two whole-array products of the
reference), the operand index at output entry `i` and contraction position `q`: the left operand is read at (row of `i`, `q`), the
right at (`q`, column of `i`). -/

theorem lhs_kd117_0 (i : S8000x128.Idx) (q : Cert.KernelIdeal.dot_S8000x117_S117x128_S8000x128_1_0_0_1_n_n.contr.Idx) :
    (Cert.KernelIdeal.dot_S8000x117_S117x128_S8000x128_1_0_0_1_n_n.lhsIdx i q 0).val = (i 0).val := by
  unfold DotDims.lhsIdx
  rw [dif_neg (show ¬(0 : Fin S8000x117.rank) ∈ Cert.KernelIdeal.dot_S8000x117_S117x128_S8000x128_1_0_0_1_n_n.lhsBatch by decide), dif_pos (show (0 : Fin S8000x117.rank) ∈ Cert.KernelIdeal.dot_S8000x117_S117x128_S8000x128_1_0_0_1_n_n.lhsNonContracting by decide)]
  rfl
theorem lhs_kd117_1 (i : S8000x128.Idx) (q : Cert.KernelIdeal.dot_S8000x117_S117x128_S8000x128_1_0_0_1_n_n.contr.Idx) :
    (Cert.KernelIdeal.dot_S8000x117_S117x128_S8000x128_1_0_0_1_n_n.lhsIdx i q 1).val = (q ⟨0, by decide⟩).val :=
  Cert.KernelIdeal.dot_S8000x117_S117x128_S8000x128_1_0_0_1_n_n.lhsIdx_val_of_single rfl i q
theorem rhs_kd117_0 (i : S8000x128.Idx) (q : Cert.KernelIdeal.dot_S8000x117_S117x128_S8000x128_1_0_0_1_n_n.contr.Idx) :
    (Cert.KernelIdeal.dot_S8000x117_S117x128_S8000x128_1_0_0_1_n_n.rhsIdx i q 0).val = (q ⟨0, by decide⟩).val :=
  Cert.KernelIdeal.dot_S8000x117_S117x128_S8000x128_1_0_0_1_n_n.rhsIdx_val_of_single rfl i q
theorem rhs_kd117_1 (i : S8000x128.Idx) (q : Cert.KernelIdeal.dot_S8000x117_S117x128_S8000x128_1_0_0_1_n_n.contr.Idx) :
    (Cert.KernelIdeal.dot_S8000x117_S117x128_S8000x128_1_0_0_1_n_n.rhsIdx i q 1).val = (i 1).val := by
  unfold DotDims.rhsIdx
  rw [dif_neg (show ¬(1 : Fin S117x128.rank) ∈ Cert.KernelIdeal.dot_S8000x117_S117x128_S8000x128_1_0_0_1_n_n.rhsBatch by decide), dif_pos (show (1 : Fin S117x128.rank) ∈ Cert.KernelIdeal.dot_S8000x117_S117x128_S8000x128_1_0_0_1_n_n.rhsNonContracting by decide)]
  rfl

theorem lhs_kd128_0 (i : S8000x128.Idx) (q : Cert.KernelIdeal.dot_S8000x128_S128x128_S8000x128_1_0_0_1_n_n.contr.Idx) :
    (Cert.KernelIdeal.dot_S8000x128_S128x128_S8000x128_1_0_0_1_n_n.lhsIdx i q 0).val = (i 0).val := by
  unfold DotDims.lhsIdx
  rw [dif_neg (show ¬(0 : Fin S8000x128.rank) ∈ Cert.KernelIdeal.dot_S8000x128_S128x128_S8000x128_1_0_0_1_n_n.lhsBatch by decide), dif_pos (show (0 : Fin S8000x128.rank) ∈ Cert.KernelIdeal.dot_S8000x128_S128x128_S8000x128_1_0_0_1_n_n.lhsNonContracting by decide)]
  rfl
theorem lhs_kd128_1 (i : S8000x128.Idx) (q : Cert.KernelIdeal.dot_S8000x128_S128x128_S8000x128_1_0_0_1_n_n.contr.Idx) :
    (Cert.KernelIdeal.dot_S8000x128_S128x128_S8000x128_1_0_0_1_n_n.lhsIdx i q 1).val = (q ⟨0, by decide⟩).val :=
  Cert.KernelIdeal.dot_S8000x128_S128x128_S8000x128_1_0_0_1_n_n.lhsIdx_val_of_single rfl i q
theorem rhs_kd128_0 (i : S8000x128.Idx) (q : Cert.KernelIdeal.dot_S8000x128_S128x128_S8000x128_1_0_0_1_n_n.contr.Idx) :
    (Cert.KernelIdeal.dot_S8000x128_S128x128_S8000x128_1_0_0_1_n_n.rhsIdx i q 0).val = (q ⟨0, by decide⟩).val :=
  Cert.KernelIdeal.dot_S8000x128_S128x128_S8000x128_1_0_0_1_n_n.rhsIdx_val_of_single rfl i q
theorem rhs_kd128_1 (i : S8000x128.Idx) (q : Cert.KernelIdeal.dot_S8000x128_S128x128_S8000x128_1_0_0_1_n_n.contr.Idx) :
    (Cert.KernelIdeal.dot_S8000x128_S128x128_S8000x128_1_0_0_1_n_n.rhsIdx i q 1).val = (i 1).val := by
  unfold DotDims.rhsIdx
  rw [dif_neg (show ¬(1 : Fin S128x128.rank) ∈ Cert.KernelIdeal.dot_S8000x128_S128x128_S8000x128_1_0_0_1_n_n.rhsBatch by decide), dif_pos (show (1 : Fin S128x128.rank) ∈ Cert.KernelIdeal.dot_S8000x128_S128x128_S8000x128_1_0_0_1_n_n.rhsNonContracting by decide)]
  rfl

theorem lhs_rd117_0 (i : S200000x128.Idx) (q : Cert.ReferenceIdeal.dot_S200000x117_S117x128_S200000x128_1_0_0_1_n_n.contr.Idx) :
    (Cert.ReferenceIdeal.dot_S200000x117_S117x128_S200000x128_1_0_0_1_n_n.lhsIdx i q 0).val = (i 0).val := by
  unfold DotDims.lhsIdx
  rw [dif_neg (show ¬(0 : Fin S200000x117.rank) ∈ Cert.ReferenceIdeal.dot_S200000x117_S117x128_S200000x128_1_0_0_1_n_n.lhsBatch by decide), dif_pos (show (0 : Fin S200000x117.rank) ∈ Cert.ReferenceIdeal.dot_S200000x117_S117x128_S200000x128_1_0_0_1_n_n.lhsNonContracting by decide)]
  rfl
theorem lhs_rd117_1 (i : S200000x128.Idx) (q : Cert.ReferenceIdeal.dot_S200000x117_S117x128_S200000x128_1_0_0_1_n_n.contr.Idx) :
    (Cert.ReferenceIdeal.dot_S200000x117_S117x128_S200000x128_1_0_0_1_n_n.lhsIdx i q 1).val = (q ⟨0, by decide⟩).val :=
  Cert.ReferenceIdeal.dot_S200000x117_S117x128_S200000x128_1_0_0_1_n_n.lhsIdx_val_of_single rfl i q
theorem rhs_rd117_0 (i : S200000x128.Idx) (q : Cert.ReferenceIdeal.dot_S200000x117_S117x128_S200000x128_1_0_0_1_n_n.contr.Idx) :
    (Cert.ReferenceIdeal.dot_S200000x117_S117x128_S200000x128_1_0_0_1_n_n.rhsIdx i q 0).val = (q ⟨0, by decide⟩).val :=
  Cert.ReferenceIdeal.dot_S200000x117_S117x128_S200000x128_1_0_0_1_n_n.rhsIdx_val_of_single rfl i q
theorem rhs_rd117_1 (i : S200000x128.Idx) (q : Cert.ReferenceIdeal.dot_S200000x117_S117x128_S200000x128_1_0_0_1_n_n.contr.Idx) :
    (Cert.ReferenceIdeal.dot_S200000x117_S117x128_S200000x128_1_0_0_1_n_n.rhsIdx i q 1).val = (i 1).val := by
  unfold DotDims.rhsIdx
  rw [dif_neg (show ¬(1 : Fin S117x128.rank) ∈ Cert.ReferenceIdeal.dot_S200000x117_S117x128_S200000x128_1_0_0_1_n_n.rhsBatch by decide), dif_pos (show (1 : Fin S117x128.rank) ∈ Cert.ReferenceIdeal.dot_S200000x117_S117x128_S200000x128_1_0_0_1_n_n.rhsNonContracting by decide)]
  rfl

theorem lhs_rd128_0 (i : S200000x128.Idx) (q : Cert.ReferenceIdeal.dot_S200000x128_S128x128_S200000x128_1_0_0_1_n_n.contr.Idx) :
    (Cert.ReferenceIdeal.dot_S200000x128_S128x128_S200000x128_1_0_0_1_n_n.lhsIdx i q 0).val = (i 0).val := by
  unfold DotDims.lhsIdx
  rw [dif_neg (show ¬(0 : Fin S200000x128.rank) ∈ Cert.ReferenceIdeal.dot_S200000x128_S128x128_S200000x128_1_0_0_1_n_n.lhsBatch by decide), dif_pos (show (0 : Fin S200000x128.rank) ∈ Cert.ReferenceIdeal.dot_S200000x128_S128x128_S200000x128_1_0_0_1_n_n.lhsNonContracting by decide)]
  rfl
theorem lhs_rd128_1 (i : S200000x128.Idx) (q : Cert.ReferenceIdeal.dot_S200000x128_S128x128_S200000x128_1_0_0_1_n_n.contr.Idx) :
    (Cert.ReferenceIdeal.dot_S200000x128_S128x128_S200000x128_1_0_0_1_n_n.lhsIdx i q 1).val = (q ⟨0, by decide⟩).val :=
  Cert.ReferenceIdeal.dot_S200000x128_S128x128_S200000x128_1_0_0_1_n_n.lhsIdx_val_of_single rfl i q
theorem rhs_rd128_0 (i : S200000x128.Idx) (q : Cert.ReferenceIdeal.dot_S200000x128_S128x128_S200000x128_1_0_0_1_n_n.contr.Idx) :
    (Cert.ReferenceIdeal.dot_S200000x128_S128x128_S200000x128_1_0_0_1_n_n.rhsIdx i q 0).val = (q ⟨0, by decide⟩).val :=
  Cert.ReferenceIdeal.dot_S200000x128_S128x128_S200000x128_1_0_0_1_n_n.rhsIdx_val_of_single rfl i q
theorem rhs_rd128_1 (i : S200000x128.Idx) (q : Cert.ReferenceIdeal.dot_S200000x128_S128x128_S200000x128_1_0_0_1_n_n.contr.Idx) :
    (Cert.ReferenceIdeal.dot_S200000x128_S128x128_S200000x128_1_0_0_1_n_n.rhsIdx i q 1).val = (i 1).val := by
  unfold DotDims.rhsIdx
  rw [dif_neg (show ¬(1 : Fin S128x128.rank) ∈ Cert.ReferenceIdeal.dot_S200000x128_S128x128_S200000x128_1_0_0_1_n_n.rhsBatch by decide), dif_pos (show (1 : Fin S128x128.rank) ∈ Cert.ReferenceIdeal.dot_S200000x128_S128x128_S200000x128_1_0_0_1_n_n.rhsNonContracting by decide)]
  rfl

/-! ### The four products at an entry -/

/-- The projection kernel's product on a block: entry `j` is the sum over the 117 input features. -/
theorem kmatmul117_apply (l : FVec Ideal S8000x117 .bf16) (r : FVec Ideal S117x128 .bf16) (j : S8000x128.Idx) :
    matmul Cert.KernelIdeal.dot_S8000x117_S117x128_S8000x128_1_0_0_1_n_n none l r (constant S8000x128 .f32 0x00000000#32) j
      = ∑ k : Fin 117, l (ix2 ⟨(j 0).val, (j 0).isLt⟩ k) * r (ix2 k ⟨(j 1).val, (j 1).isLt⟩) := by
  refine (Ideal.matmul_constant_zero_apply _ none l r j).trans ?_
  exact dot_sum_plain Cert.KernelIdeal.dot_S8000x117_S117x128_S8000x128_1_0_0_1_n_n rfl rfl lhs_kd117_0 lhs_kd117_1 rhs_kd117_0 rhs_kd117_1 l r j

/-- A combine kernel's product on a block: entry `j` is the sum over the 128 hidden features. -/
theorem kmatmul128_apply (l : FVec Ideal S8000x128 .bf16) (r : FVec Ideal S128x128 .bf16) (j : S8000x128.Idx) :
    matmul Cert.KernelIdeal.dot_S8000x128_S128x128_S8000x128_1_0_0_1_n_n none l r (constant S8000x128 .f32 0x00000000#32) j
      = ∑ k : Fin 128, l (ix2 ⟨(j 0).val, (j 0).isLt⟩ k) * r (ix2 k ⟨(j 1).val, (j 1).isLt⟩) := by
  refine (Ideal.matmul_constant_zero_apply _ none l r j).trans ?_
  exact dot_sum_plain Cert.KernelIdeal.dot_S8000x128_S128x128_S8000x128_1_0_0_1_n_n rfl rfl lhs_kd128_0 lhs_kd128_1 rhs_kd128_0 rhs_kd128_1 l r j

/-- The reference's input product on all nodes. -/
theorem rdot117_apply (l : FVec Ideal S200000x117 .f32) (r : FVec Ideal S117x128 .f32) (i : S200000x128.Idx) :
    Host.dotGeneral (F := Ideal) Cert.ReferenceIdeal.dot_S200000x117_S117x128_S200000x128_1_0_0_1_n_n none l r i
      = ∑ k : Fin 117, l (ix2 ⟨(i 0).val, (i 0).isLt⟩ k) * r (ix2 k ⟨(i 1).val, (i 1).isLt⟩) := by
  simp only [Host.dotGeneral]
  rw [Ideal.dotGeneral_apply]
  exact dot_sum_plain Cert.ReferenceIdeal.dot_S200000x117_S117x128_S200000x128_1_0_0_1_n_n rfl rfl lhs_rd117_0 lhs_rd117_1 rhs_rd117_0 rhs_rd117_1 l r i

/-- The reference's hidden product on all nodes. -/
theorem rdot128_apply (l : FVec Ideal S200000x128 .f32) (r : FVec Ideal S128x128 .f32) (i : S200000x128.Idx) :
    Host.dotGeneral (F := Ideal) Cert.ReferenceIdeal.dot_S200000x128_S128x128_S200000x128_1_0_0_1_n_n none l r i
      = ∑ k : Fin 128, l (ix2 ⟨(i 0).val, (i 0).isLt⟩ k) * r (ix2 k ⟨(i 1).val, (i 1).isLt⟩) := by
  simp only [Host.dotGeneral]
  rw [Ideal.dotGeneral_apply]
  exact dot_sum_plain Cert.ReferenceIdeal.dot_S200000x128_S128x128_S200000x128_1_0_0_1_n_n rfl rfl lhs_rd128_0 lhs_rd128_1 rhs_rd128_0 rhs_rd128_1 l r i

/-! ### The bias row -/

/-- The kernels' bias: the [1,128] row spread over the 8000 rows of a block reads the row at the entry's column. -/
theorem bias_block {α : Type} (b : S1x128.Idx → α) (h2 : S1x128.Broadcasts S8000x128) (j : S8000x128.Idx) :
    broadcastTo S8000x128 b h2 j = b (ix2 (0 : Fin 1) ⟨(j 1).val, (j 1).isLt⟩) :=
  broadcastTo_apply b h2 j _ (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The whole-array bias: the [1,128] row spread over all 200000 rows reads the row at the entry's column. -/
theorem bias_all {α : Type} (b : S1x128.Idx → α) (h : S1x128.BroadcastsInDim S200000x128 ![0, 1]) (i : S200000x128.Idx) :
    broadcastInDim S200000x128 ![0, 1] h b i = b (ix2 (0 : Fin 1) ⟨(i 1).val, (i 1).isLt⟩) :=
  broadcastInDim_apply _ h b i _ (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A [128] vector reshaped to a [1,128] row is the vector broadcast along a new leading axis: both read the vector at the column. -/
theorem row_reshape_eq_broadcast {F : FTy → Type} [FloatOps F] (v : (⟨S128, .f32⟩ : BufTy).Contents (Elt F)) :
    shapeCast S1x128 v Cert.KernelIdeal.Facts₀.shapeCasts_S128_S1x128
      = broadcastInDim S1x128 ![1] Cert.ReferenceIdeal.Facts₀.bcast_S128_S1x128_1 v := by
  funext j
  have e1 : shapeCast S1x128 v Cert.KernelIdeal.Facts₀.shapeCasts_S128_S1x128 j = v (ix1 ⟨(j 1).val, (j 1).isLt⟩) :=
    (congrArg (shapeCast S1x128 v Cert.KernelIdeal.Facts₀.shapeCasts_S128_S1x128) (ValueIdx.eq_ix2 j)).trans
      (ValueIdx.shapeCast_a_1a_apply v Cert.KernelIdeal.Facts₀.shapeCasts_S128_S1x128 (j 0) (j 1))
  have e2 : broadcastInDim S1x128 ![1] Cert.ReferenceIdeal.Facts₀.bcast_S128_S1x128_1 v j = v (ix1 ⟨(j 1).val, (j 1).isLt⟩) :=
    broadcastInDim_apply _ Cert.ReferenceIdeal.Facts₀.bcast_S128_S1x128_1 v j _ (fun a => match a with
      | ⟨0, _⟩ => by show (j 1).val = if (128 : Nat) = 1 then 0 else (j 1).val; rw [if_neg (by decide)])
  rw [e1, e2]

/-- A combine kernel's block before the activation, at an entry: two 128-term sums and the bias. -/
theorem k3_pay1_apply (x0 x1 : Vec Ideal S8000x128 .f32) (x2 x3 : Vec Ideal S128x128 .f32) (x4 : Vec Ideal S1x128 .f32) (j : S8000x128.Idx) :
    k3_pay1 x0 x1 x2 x3 x4 j
      = ((∑ k : Fin 128, x0 (ix2 ⟨(j 0).val, (j 0).isLt⟩ k) * x2 (ix2 k ⟨(j 1).val, (j 1).isLt⟩))
          + ∑ k : Fin 128, x1 (ix2 ⟨(j 0).val, (j 0).isLt⟩ k) * x3 (ix2 k ⟨(j 1).val, (j 1).isLt⟩))
        + x4 (ix2 (0 : Fin 1) ⟨(j 1).val, (j 1).isLt⟩) := by
  unfold k3_pay1
  simp only [shapeCast_self]
  show (matmul (F := Ideal) _ none _ _ _ j + matmul (F := Ideal) _ none _ _ _ j) + broadcastTo S8000x128 x4 _ j = _
  rw [kmatmul128_apply, kmatmul128_apply, bias_block]
  rfl

/-- The whole-array combination at an entry: two 128-term sums and the bias. -/
theorem linSpec_apply (H A : (⟨S200000x128, .f32⟩ : BufTy).Contents (Elt Ideal)) (ws wn : (⟨S128x128, .f32⟩ : BufTy).Contents (Elt Ideal))
    (b2 : (⟨S1x128, .f32⟩ : BufTy).Contents (Elt Ideal)) (i : S200000x128.Idx) :
    linSpec (F := Ideal) H A ws wn b2 i
      = ((∑ k : Fin 128, H (ix2 ⟨(i 0).val, (i 0).isLt⟩ k) * ws (ix2 k ⟨(i 1).val, (i 1).isLt⟩))
          + ∑ k : Fin 128, A (ix2 ⟨(i 0).val, (i 0).isLt⟩ k) * wn (ix2 k ⟨(i 1).val, (i 1).isLt⟩))
        + b2 (ix2 (0 : Fin 1) ⟨(i 1).val, (i 1).isLt⟩) := by
  unfold linSpec
  show (Host.dotGeneral (F := Ideal) _ none H ws i + Host.dotGeneral (F := Ideal) _ none A wn i)
    + broadcastInDim S200000x128 ![0, 1] _ b2 i = _
  rw [rdot128_apply, rdot128_apply, bias_all]

/-- One grid point of the last layer's kernel (no activation): entry `j` of its stored block is entry `i` of (h·Ws + agg·Wn) + b
    when `i` is `j` moved down by 8000·t rows and the kernel's h and agg blocks are those rows of h and agg. -/
theorem lin_point (x0 x1 : Vec Ideal S8000x128 .f32) (x2 x3 : Vec Ideal S128x128 .f32) (x4 : Vec Ideal S1x128 .f32)
    (H A : (⟨S200000x128, .f32⟩ : BufTy).Contents (Elt Ideal)) (t : ℕ)
    (h0 : ∀ (y : S8000x128.Idx) (i : S200000x128.Idx), (i 0).val = 8000 * t + (y 0).val → (i 1).val = (y 1).val → x0 y = H i)
    (h1 : ∀ (y : S8000x128.Idx) (i : S200000x128.Idx), (i 0).val = 8000 * t + (y 0).val → (i 1).val = (y 1).val → x1 y = A i)
    (j : S8000x128.Idx) (i : S200000x128.Idx) (hi0 : (i 0).val = 8000 * t + (j 0).val) (hi1 : (i 1).val = (j 1).val) :
    k3_pay1 x0 x1 x2 x3 x4 j = linSpec (F := Ideal) H A x2 x3 x4 i := by
  rw [k3_pay1_apply, linSpec_apply]
  have hc : (⟨(i 1).val, (i 1).isLt⟩ : Fin 128) = ⟨(j 1).val, (j 1).isLt⟩ := Fin.ext hi1
  rw [hc]
  have s0 : ∀ k : Fin 128, x0 (ix2 ⟨(j 0).val, (j 0).isLt⟩ k) = H (ix2 ⟨(i 0).val, (i 0).isLt⟩ k) := fun k => h0 _ _ hi0 rfl
  have s1 : ∀ k : Fin 128, x1 (ix2 ⟨(j 0).val, (j 0).isLt⟩ k) = A (ix2 ⟨(i 0).val, (i 0).isLt⟩ k) := fun k => h1 _ _ hi0 rfl
  simp only [s0, s1]

/-- A block of a kernel that ends with the activation is the entrywise maximum of the unactivated block with zero. -/
theorem k1_pay1_eq (x0 x1 : Vec Ideal S8000x128 .f32) (x2 x3 : Vec Ideal S128x128 .f32) (x4 : Vec Ideal S1x128 .f32) (j : S8000x128.Idx) :
    k1_pay1 x0 x1 x2 x3 x4 j = max (k3_pay1 x0 x1 x2 x3 x4 j) (Ideal.ofBits .f32 0x00000000#32) := rfl
/-- The same for the second layer's kernel. -/
theorem k2_pay1_eq (x0 x1 : Vec Ideal S8000x128 .f32) (x2 x3 : Vec Ideal S128x128 .f32) (x4 : Vec Ideal S1x128 .f32) (j : S8000x128.Idx) :
    k2_pay1 x0 x1 x2 x3 x4 j = max (k3_pay1 x0 x1 x2 x3 x4 j) (Ideal.ofBits .f32 0x00000000#32) := rfl
/-- The whole-array activation at an entry. -/
theorem reluSpec_apply (y : (⟨S200000x128, .f32⟩ : BufTy).Contents (Elt Ideal)) (i : S200000x128.Idx) :
    reluSpec (F := Ideal) y i = max (y i) (Ideal.ofBits .f32 0x00000000#32) := rfl

/-- The same for the first layer's kernel, which ends with max(·, 0). -/
theorem relu_point1 (x0 x1 : Vec Ideal S8000x128 .f32) (x2 x3 : Vec Ideal S128x128 .f32) (x4 : Vec Ideal S1x128 .f32)
    (H A : (⟨S200000x128, .f32⟩ : BufTy).Contents (Elt Ideal)) (t : ℕ)
    (h0 : ∀ (y : S8000x128.Idx) (i : S200000x128.Idx), (i 0).val = 8000 * t + (y 0).val → (i 1).val = (y 1).val → x0 y = H i)
    (h1 : ∀ (y : S8000x128.Idx) (i : S200000x128.Idx), (i 0).val = 8000 * t + (y 0).val → (i 1).val = (y 1).val → x1 y = A i)
    (j : S8000x128.Idx) (i : S200000x128.Idx) (hi0 : (i 0).val = 8000 * t + (j 0).val) (hi1 : (i 1).val = (j 1).val) :
    k1_pay1 x0 x1 x2 x3 x4 j = reluSpec (F := Ideal) (linSpec (F := Ideal) H A x2 x3 x4) i := by
  rw [k1_pay1_eq, reluSpec_apply, lin_point x0 x1 x2 x3 x4 H A t h0 h1 j i hi0 hi1]

/-- The same for the second layer's kernel. -/
theorem relu_point2 (x0 x1 : Vec Ideal S8000x128 .f32) (x2 x3 : Vec Ideal S128x128 .f32) (x4 : Vec Ideal S1x128 .f32)
    (H A : (⟨S200000x128, .f32⟩ : BufTy).Contents (Elt Ideal)) (t : ℕ)
    (h0 : ∀ (y : S8000x128.Idx) (i : S200000x128.Idx), (i 0).val = 8000 * t + (y 0).val → (i 1).val = (y 1).val → x0 y = H i)
    (h1 : ∀ (y : S8000x128.Idx) (i : S200000x128.Idx), (i 0).val = 8000 * t + (y 0).val → (i 1).val = (y 1).val → x1 y = A i)
    (j : S8000x128.Idx) (i : S200000x128.Idx) (hi0 : (i 0).val = 8000 * t + (j 0).val) (hi1 : (i 1).val = (j 1).val) :
    k2_pay1 x0 x1 x2 x3 x4 j = reluSpec (F := Ideal) (linSpec (F := Ideal) H A x2 x3 x4) i := by
  rw [k2_pay1_eq, reluSpec_apply, lin_point x0 x1 x2 x3 x4 H A t h0 h1 j i hi0 hi1]

/-- The projection kernel's block at an entry: tanh of a 117-term sum plus the bias. -/
theorem k0_pay1_apply (x0 : Vec Ideal S8000x117 .f32) (x1 : Vec Ideal S117x128 .f32) (x2 : Vec Ideal S1x128 .f32) (j : S8000x128.Idx) :
    k0_pay1 x0 x1 x2 j
      = Ideal.tanh ((∑ k : Fin 117, x0 (ix2 ⟨(j 0).val, (j 0).isLt⟩ k) * x1 (ix2 k ⟨(j 1).val, (j 1).isLt⟩))
          + x2 (ix2 (0 : Fin 1) ⟨(j 1).val, (j 1).isLt⟩)) := by
  unfold k0_pay1
  simp only [shapeCast_self]
  show Ideal.tanh (matmul (F := Ideal) _ none _ _ _ j + broadcastTo S8000x128 x2 _ j) = _
  rw [kmatmul117_apply, bias_block]
  rfl

/-- The whole-array projection at an entry. -/
theorem projSpec_apply (x : (⟨S200000x117, .f32⟩ : BufTy).Contents (Elt Ideal)) (w : (⟨S117x128, .f32⟩ : BufTy).Contents (Elt Ideal))
    (b2 : (⟨S1x128, .f32⟩ : BufTy).Contents (Elt Ideal)) (i : S200000x128.Idx) :
    projSpec (F := Ideal) x w b2 i
      = Ideal.tanh ((∑ k : Fin 117, x (ix2 ⟨(i 0).val, (i 0).isLt⟩ k) * w (ix2 k ⟨(i 1).val, (i 1).isLt⟩))
          + b2 (ix2 (0 : Fin 1) ⟨(i 1).val, (i 1).isLt⟩)) := by
  unfold projSpec
  show Ideal.tanh (Host.dotGeneral (F := Ideal) _ none x w i + broadcastInDim S200000x128 ![0, 1] _ b2 i) = _
  rw [rdot117_apply, bias_all]

/-- One grid point of the projection kernel: entry `j` of its stored block is entry `i` of tanh(x·W + b) when `i` is `j` moved
    down by 8000·t rows and the kernel's x block is those rows of x. -/
theorem proj_point (x0 : Vec Ideal S8000x117 .f32) (x1 : Vec Ideal S117x128 .f32) (x2 : Vec Ideal S1x128 .f32)
    (X : (⟨S200000x117, .f32⟩ : BufTy).Contents (Elt Ideal)) (t : ℕ)
    (h0 : ∀ (y : S8000x117.Idx) (i : S200000x117.Idx), (i 0).val = 8000 * t + (y 0).val → (i 1).val = (y 1).val → x0 y = X i)
    (j : S8000x128.Idx) (i : S200000x128.Idx) (hi0 : (i 0).val = 8000 * t + (j 0).val) (hi1 : (i 1).val = (j 1).val) :
    k0_pay1 x0 x1 x2 j = projSpec (F := Ideal) X x1 x2 i := by
  rw [k0_pay1_apply, projSpec_apply]
  have hc : (⟨(i 1).val, (i 1).isLt⟩ : Fin 128) = ⟨(j 1).val, (j 1).isLt⟩ := Fin.ext hi1
  rw [hc]
  have s0 : ∀ k : Fin 117, x0 (ix2 ⟨(j 0).val, (j 0).isLt⟩ k) = X (ix2 ⟨(i 0).val, (i 0).isLt⟩ k) := fun k => h0 _ _ hi0 rfl
  simp only [s0]

end Cert.Hand

end
-- ==== Proof.Region0.lean ====
/-
  The projection kernel's output array. Its 25 grid points each take 8000 rows of x, all of W and the bias row, and store
  tanh(rows·W + b) as the same 8000 rows of the output; the blocks tile the [200000, 128] array, so after the region the array is
  tanh(x·W + b) whatever the arrays held when the region was entered.
-/
import proofs.«176199_j57097295233646_1_alg».proof.Proof.Spec
import proofs.«176199_j57097295233646_1_alg».proof.Proof.Gen.KernelIdeal.Frame
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem zero_offsets0 : (![0, 0] : Fin 2 → Nat) = fun _ => 0 := funext fun a => by fin_cases a <;> rfl

/-- The block indices of the four windows at grid point t, decided over the 25 points: the x rows and the output rows are
    block t of their arrays along the rows; the weights and the bias row are their whole arrays at every point. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t is rows 8000·t … 8000·t + 7999 of x. -/
theorem xrows0_apply (c : Dev nD) (t : Fin cfg0.N) (y : S8000x117.Idx) (i : S200000x117.Idx)
    (h0 : (i 0).val = 8000 * t.val + (y 0).val) (h1 : (i 1).val = (y 1).val) :
    (iblk0 V c 0 t : Vec Ideal S8000x117 .f32) y = (V c main_arg0 : S200000x117.Idx → Elt Ideal .f32) i := by
  obtain ⟨e0, e1, -⟩ := block_index0 t
  unfold iblk0
  rw [View.read_apply]
  show V c main_arg0 _ = V c main_arg0 _
  congr 1
  funext a
  apply Fin.ext
  match a with
  | ⟨0, _⟩ => show win0_0.index t 0 * 8000 + 1 * (y 0).val = (i 0).val; rw [e0, h0]; omega
  | ⟨1, _⟩ => show win0_0.index t 1 * 117 + 1 * (y 1).val = (i 1).val; rw [e1, h1]; omega

/-- The weight block at every point is the whole weight matrix. -/
theorem wblock0_eq (c : Dev nD) (t : Fin cfg0.N) :
    (iblk0 V c 1 t : Vec Ideal S117x128 .f32) = (V c main_arg2 : S117x128.Idx → Elt Ideal .f32) := by
  obtain ⟨-, -, e0, e1, -⟩ := block_index0 t
  funext y
  unfold iblk0
  rw [View.read_apply]
  show V c main_arg2 _ = V c main_arg2 y
  congr 1
  funext a
  apply Fin.ext
  match a with
  | ⟨0, _⟩ => show win0_1.index t 0 * 117 + 1 * (y 0).val = (y 0).val; rw [e0]; omega
  | ⟨1, _⟩ => show win0_1.index t 1 * 128 + 1 * (y 1).val = (y 1).val; rw [e1]; omega

/-- The bias block at every point is the whole bias row. -/
theorem bblock0_eq (c : Dev nD) (t : Fin cfg0.N) :
    (iblk0 V c 2 t : Vec Ideal S1x128 .f32) = (V c main_v12 : S1x128.Idx → Elt Ideal .f32) := by
  obtain ⟨-, -, -, -, e0, e1, -⟩ := block_index0 t
  funext y
  unfold iblk0
  rw [View.read_apply]
  show V c main_v12 _ = V c main_v12 y
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- What grid point t writes back is its 8000 output rows of tanh(x·W + b) of the arrays the region was entered with. -/
theorem flushed0_eq (c : Dev nD) (t : Fin cfg0.N) :
    (dat0 V c).flushed 3 t
      = ((cfg0.win 3).blk t).view.read (Elt Ideal) (projSpec (F := Ideal) (V c main_arg0) (V c main_arg2) (V c main_v12)) := by
  show (cfg0.win 3).cut (grid0.coords t) ((dat0 V c).after 3 t) = _
  rw [after0_3]
  unfold out0_3
  rw [View.canon_unit_zero zero_offsets0]
  simp only [View.ld_unit_zero (S := S8000x117) zero_offsets0, View.ld_unit_zero (S := S117x128) zero_offsets0,
    View.ld_unit_zero (S := S1x128) zero_offsets0]
  rw [wblock0_eq, bblock0_eq]
  obtain ⟨-, -, -, -, -, -, e0, e1⟩ := block_index0 t
  funext j
  have hj0 : (j 0).val < 8000 := (j 0).isLt
  have hj1 : (j 1).val < 128 := (j 1).isLt
  refine (proj_point (iblk0 V c 0 t) (V c main_arg2) (V c main_v12) (V c main_arg0) t.val
    (fun y i h0 h1 => xrows0_apply V c t y i h0 h1) j (((cfg0.win 3).blk t).view.emb j) ?_ ?_).trans ?_
  · show win0_3.index t 0 * 8000 + 1 * (j 0).val = 8000 * t.val + (j 0).val
    rw [e0]; omega
  · show win0_3.index t 1 * 128 + 1 * (j 1).val = (j 1).val
    rw [e1]; omega
  · rfl

/-- An index of the output array is in point t's block iff each coordinate is in the block's range on its axis. -/
theorem mem_rows0 (t : Fin cfg0.N) (i : S200000x128.Idx) :
    i ∈ ((cfg0.win 3).blk t).view.set
      ↔ ∀ a : Fin 2, win0_3.index t a * S8000x128.size a ≤ (i a).val ∧ (i a).val < win0_3.index t a * S8000x128.size a + S8000x128.size a := by
  show i ∈ ((View.whole main_v13).slice (win0_3.rect t)).set ↔ _
  rw [View.set_slice_whole, Rect.mem_set_unit]
  exact Iff.rfl

/-- Row r of the output is in the block of grid point r / 8000. -/
theorem rows_cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : grid0.N = 25 := N_0
  let t : Fin cfg0.N := ⟨(i 0).val / 8000, by show (i 0).val / 8000 < grid0.N; rw [hN]; omega⟩
  have ht : t.val = (i 0).val / 8000 := rfl
  obtain ⟨-, -, -, -, -, -, e0, e1⟩ := block_index0 t
  refine ⟨t, flush0_3 t, ?_⟩
  rw [mem_rows0]
  intro a
  match a with
  | ⟨0, _⟩ =>
    show win0_3.index t 0 * 8000 ≤ (i 0).val ∧ (i 0).val < win0_3.index t 0 * 8000 + 8000
    rw [e0, ht]; omega
  | ⟨1, _⟩ =>
    show win0_3.index t 1 * 128 ≤ (i 1).val ∧ (i 1).val < win0_3.index t 1 * 128 + 128
    rw [e1]; omega

/-- After region 0 its output array is tanh(x·W + b) of the arrays the region was entered with. -/
theorem final0 (c : Dev nD) :
    (dat0 V c).arrAt 3 cfg0.N = projSpec (F := Ideal) (V c main_arg0) (V c main_arg2) (V c main_v12) :=
  (dat0 V c).arrAt_eq_of_cover 3 (projSpec (F := Ideal) (V c main_arg0) (V c main_arg2) (V c main_v12))
    (fun t _ => flushed0_eq V c t) (rows_cover0)

end Cert.KernelIdeal.Hand

end
-- ==== Proof.Region1.lean ====
/-
  The first layer's output array. Each of the 25 grid points takes 8000 rows of h and of agg, the two weight matrices and the bias row,
  and stores max((rows of h)·Ws + (rows of agg)·Wn + b, 0) as the same rows of the output; the blocks tile the array.
-/
import proofs.«176199_j57097295233646_1_alg».proof.Proof.Spec
import proofs.«176199_j57097295233646_1_alg».proof.Proof.Gen.KernelIdeal.Frame
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer rectangle, as a constant function. -/
theorem zero_off : (![0, 0] : Fin 2 → Nat) = fun _ => 0 := funext fun a => by fin_cases a <;> rfl

/-- The index maps over the grid: point t takes row block t of h, of agg and of the output, and block (0, 0) of the weights and the bias row. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The h block at point t is rows 8000·t … 8000·t + 7999 of h. -/
theorem h_rows (c : Dev nD) (t : Fin cfg1.N) (y : S8000x128.Idx) (i : S200000x128.Idx)
    (hi0 : (i 0).val = 8000 * t.val + (y 0).val) (hi1 : (i 1).val = (y 1).val) :
    (iblk1 V c 0 t : Vec Ideal S8000x128 .f32) y = (V c main_v13 : S200000x128.Idx → Elt Ideal .f32) i := by
  obtain ⟨e0, e1, -⟩ := index_maps1 t
  unfold iblk1
  rw [View.read_apply]
  show V c main_v13 _ = V c main_v13 _
  congr 1
  funext a
  apply Fin.ext
  match a with
  | ⟨0, _⟩ => show win1_0.index t (0 : Fin 2) * 8000 + 1 * (y 0).val = (i 0).val; rw [e0, hi0]; omega
  | ⟨1, _⟩ => show win1_0.index t (1 : Fin 2) * 128 + 1 * (y 1).val = (i 1).val; rw [e1, hi1]; omega

/-- The agg block at point t is the same rows of agg. -/
theorem agg_rows (c : Dev nD) (t : Fin cfg1.N) (y : S8000x128.Idx) (i : S200000x128.Idx)
    (hi0 : (i 0).val = 8000 * t.val + (y 0).val) (hi1 : (i 1).val = (y 1).val) :
    (iblk1 V c 1 t : Vec Ideal S8000x128 .f32) y = (V c main_v26 : S200000x128.Idx → Elt Ideal .f32) i := by
  obtain ⟨-, -, e0, e1, -⟩ := index_maps1 t
  unfold iblk1
  rw [View.read_apply]
  show V c main_v26 _ = V c main_v26 _
  congr 1
  funext a
  apply Fin.ext
  match a with
  | ⟨0, _⟩ => show win1_1.index t (0 : Fin 2) * 8000 + 1 * (y 0).val = (i 0).val; rw [e0, hi0]; omega
  | ⟨1, _⟩ => show win1_1.index t (1 : Fin 2) * 128 + 1 * (y 1).val = (i 1).val; rw [e1, hi1]; omega

/-- The Ws block at every point is the whole matrix Ws. -/
theorem ws_whole (c : Dev nD) (t : Fin cfg1.N) :
    (iblk1 V c 2 t : Vec Ideal S128x128 .f32) = (V c main_v28 : S128x128.Idx → Elt Ideal .f32) := by
  obtain ⟨-, -, -, -, e0, e1, -⟩ := index_maps1 t
  funext y
  unfold iblk1
  rw [View.read_apply]
  show V c main_v28 _ = V c main_v28 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The Wn block at every point is the whole matrix Wn. -/
theorem wn_whole (c : Dev nD) (t : Fin cfg1.N) :
    (iblk1 V c 3 t : Vec Ideal S128x128 .f32) = (V c main_v30 : S128x128.Idx → Elt Ideal .f32) := by
  obtain ⟨-, -, -, -, -, -, e0, e1, -⟩ := index_maps1 t
  funext y
  unfold iblk1
  rw [View.read_apply]
  show V c main_v30 _ = V c main_v30 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias block at every point is the whole bias row. -/
theorem bias_whole (c : Dev nD) (t : Fin cfg1.N) :
    (iblk1 V c 4 t : Vec Ideal S1x128 .f32) = (V c main_v33 : S1x128.Idx → Elt Ideal .f32) := by
  obtain ⟨-, -, -, -, -, -, -, -, e0, e1, -⟩ := index_maps1 t
  funext y
  unfold iblk1
  rw [View.read_apply]
  show V c main_v33 _ = V c main_v33 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- One entry of what point t stores: entry j of the stored block is entry i of max((h·Ws + agg·Wn) + b, 0)
    when i is j moved down by 8000·t rows. -/
theorem stored_entry1 (c : Dev nD) (t : Fin cfg1.N) (j : S8000x128.Idx) (i : S200000x128.Idx)
    (hi0 : (i 0).val = 8000 * t.val + (j 0).val) (hi1 : (i 1).val = (j 1).val) :
    k1_pay1 (iblk1 V c 0 t) (iblk1 V c 1 t) (V c main_v28) (V c main_v30) (V c main_v33) j
      = reluSpec (F := Ideal) (linSpec (F := Ideal) (V c main_v13) (V c main_v26) (V c main_v28) (V c main_v30) (V c main_v33)) i :=
  relu_point1 (iblk1 V c 0 t) (iblk1 V c 1 t) (V c main_v28) (V c main_v30) (V c main_v33) (V c main_v13) (V c main_v26) t.val
    (h_rows V c t) (agg_rows V c t) j i hi0 hi1

/-- What point t writes back is block t of max((h·Ws + agg·Wn) + b, 0). -/
theorem flushed1_eq (c : Dev nD) (t : Fin cfg1.N) :
    (dat1 V c).flushed 5 t = ((cfg1.win 5).blk t).view.read (Elt Ideal)
      (reluSpec (F := Ideal) (linSpec (F := Ideal) (V c main_v13) (V c main_v26) (V c main_v28) (V c main_v30) (V c main_v33))) := by
  show (cfg1.win 5).cut (grid1.coords t) ((dat1 V c).after 5 t) = _
  rw [after1_5]
  unfold out1_5
  rw [View.canon_unit_zero zero_off]
  simp only [View.ld_unit_zero (S := S8000x128) zero_off, View.ld_unit_zero (S := S128x128) zero_off, View.ld_unit_zero (S := S1x128) zero_off]
  rw [ws_whole, wn_whole, bias_whole]
  obtain ⟨-, -, -, -, -, -, -, -, -, -, e0, e1⟩ := index_maps1 t
  funext j
  rw [View.read_apply]
  refine stored_entry1 V c t ((win1 5).xinj (grid1.coords t) j) (((cfg1.win 5).blk t).view.emb j) ?_ ?_
  · show win1_5.index t (0 : Fin 2) * 8000 + 1 * (j 0).val = 8000 * t.val + (j 0).val
    rw [e0]; omega
  · show win1_5.index t (1 : Fin 2) * 128 + 1 * (j 1).val = (j 1).val
    rw [e1]; omega

/-- An index of the output array is in point t's block iff each coordinate is in the block's range on its axis. -/
theorem mem_block1 (t : Fin cfg1.N) (i : S200000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v34).slice (win1_5.rect t)).set ↔ _
  rw [View.set_slice_whole, Rect.mem_set_unit]
  exact Iff.rfl

/-- The 25 row blocks tile the output array: row r lies in the block of point r / 8000. -/
theorem covered1 (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  have hN : grid1.N = 25 := N_1
  have ht : (i 0).val / 8000 < grid1.N := by rw [hN]; omega
  obtain ⟨-, -, -, -, -, -, -, -, -, -, e0, e1⟩ := index_maps1 ⟨(i 0).val / 8000, ht⟩
  have e0' : win1_5.index ⟨(i 0).val / 8000, ht⟩ (0 : Fin 2) = (i 0).val / 8000 := e0
  refine ⟨⟨(i 0).val / 8000, ht⟩, flush1_5 _, ?_⟩
  rw [mem_block1]
  intro a
  match a with
  | ⟨0, _⟩ =>
    show win1_5.index ⟨(i 0).val / 8000, ht⟩ (0 : Fin 2) * 8000 ≤ (i 0).val
      ∧ (i 0).val < win1_5.index ⟨(i 0).val / 8000, ht⟩ (0 : Fin 2) * 8000 + 8000
    rw [e0']; omega
  | ⟨1, _⟩ =>
    show win1_5.index ⟨(i 0).val / 8000, ht⟩ (1 : Fin 2) * 128 ≤ (i 1).val
      ∧ (i 1).val < win1_5.index ⟨(i 0).val / 8000, ht⟩ (1 : Fin 2) * 128 + 128
    rw [e1]; omega

/-- After region 1 its output array is max((h·Ws + agg·Wn) + b, 0) of the arrays the region was entered with. -/
theorem final1 (c : Dev nD) :
    (dat1 V c).arrAt 5 cfg1.N = reluSpec (F := Ideal) (linSpec (F := Ideal) (V c main_v13) (V c main_v26) (V c main_v28) (V c main_v30) (V c main_v33)) :=
  (dat1 V c).arrAt_eq_of_cover 5 _ (fun t _ => flushed1_eq V c t) covered1

end Cert.KernelIdeal.Hand

end
-- ==== Proof.Region2.lean ====
/-
  The second layer's output array: as the first layer's, on the second layer's arrays.
-/
import proofs.«176199_j57097295233646_1_alg».proof.Proof.Spec
import proofs.«176199_j57097295233646_1_alg».proof.Proof.Gen.KernelIdeal.Frame
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem zero_offsets2 : (![0, 0] : Fin 2 → Nat) = fun _ => 0 := funext fun a => by fin_cases a <;> rfl

/-- The block indices of the second layer's six windows at grid point t, decided over the 25 points: the h rows, the agg rows
    and the output rows are block t of their arrays along the rows; Ws, Wn and the bias row are whole at every point. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The second layer's h block at point t is rows 8000·t … 8000·t + 7999 of its input h. -/
theorem hrows2_apply (c : Dev nD) (t : Fin cfg2.N) (y : S8000x128.Idx) (i : S200000x128.Idx)
    (h0 : (i 0).val = 8000 * t.val + (y 0).val) (h1 : (i 1).val = (y 1).val) :
    (iblk2 V c 0 t : Vec Ideal S8000x128 .f32) y = (V c main_v34 : S200000x128.Idx → Elt Ideal .f32) i := by
  obtain ⟨e0, e1, -⟩ := block_index2 t
  unfold iblk2
  rw [View.read_apply]
  show V c main_v34 _ = V c main_v34 _
  congr 1
  funext a
  apply Fin.ext
  match a with
  | ⟨0, _⟩ => show win2_0.index t 0 * 8000 + 1 * (y 0).val = (i 0).val; rw [e0, h0]; omega
  | ⟨1, _⟩ => show win2_0.index t 1 * 128 + 1 * (y 1).val = (i 1).val; rw [e1, h1]; omega

/-- Its agg block at point t is the same rows of the aggregated neighbours. -/
theorem aggrows2_apply (c : Dev nD) (t : Fin cfg2.N) (y : S8000x128.Idx) (i : S200000x128.Idx)
    (h0 : (i 0).val = 8000 * t.val + (y 0).val) (h1 : (i 1).val = (y 1).val) :
    (iblk2 V c 1 t : Vec Ideal S8000x128 .f32) y = (V c main_v47 : S200000x128.Idx → Elt Ideal .f32) i := by
  obtain ⟨-, -, e0, e1, -⟩ := block_index2 t
  unfold iblk2
  rw [View.read_apply]
  show V c main_v47 _ = V c main_v47 _
  congr 1
  funext a
  apply Fin.ext
  match a with
  | ⟨0, _⟩ => show win2_1.index t 0 * 8000 + 1 * (y 0).val = (i 0).val; rw [e0, h0]; omega
  | ⟨1, _⟩ => show win2_1.index t 1 * 128 + 1 * (y 1).val = (i 1).val; rw [e1, h1]; omega

/-- The second layer's Ws block at every point is the whole matrix. -/
theorem wsblock2_eq (c : Dev nD) (t : Fin cfg2.N) :
    (iblk2 V c 2 t : Vec Ideal S128x128 .f32) = (V c main_v49 : S128x128.Idx → Elt Ideal .f32) := by
  obtain ⟨-, -, -, -, e0, e1, -⟩ := block_index2 t
  funext y
  unfold iblk2
  rw [View.read_apply]
  show V c main_v49 _ = V c main_v49 y
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- Its Wn block at every point is the whole matrix. -/
theorem wnblock2_eq (c : Dev nD) (t : Fin cfg2.N) :
    (iblk2 V c 3 t : Vec Ideal S128x128 .f32) = (V c main_v51 : S128x128.Idx → Elt Ideal .f32) := by
  obtain ⟨-, -, -, -, -, -, e0, e1, -⟩ := block_index2 t
  funext y
  unfold iblk2
  rw [View.read_apply]
  show V c main_v51 _ = V c main_v51 y
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

/-- Its bias block at every point is the whole bias row. -/
theorem bblock2_eq (c : Dev nD) (t : Fin cfg2.N) :
    (iblk2 V c 4 t : Vec Ideal S1x128 .f32) = (V c main_v54 : S1x128.Idx → Elt Ideal .f32) := by
  obtain ⟨-, -, -, -, -, -, -, -, e0, e1, -⟩ := block_index2 t
  funext y
  unfold iblk2
  rw [View.read_apply]
  show V c main_v54 _ = V c main_v54 y
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- What grid point t writes back is its 8000 output rows of max((h·Ws + agg·Wn) + b, 0) of the arrays the region was entered
    with. -/
theorem flushed2_eq (c : Dev nD) (t : Fin cfg2.N) :
    (dat2 V c).flushed 5 t
      = ((cfg2.win 5).blk t).view.read (Elt Ideal)
          (reluSpec (F := Ideal) (linSpec (F := Ideal) (V c main_v34) (V c main_v47) (V c main_v49) (V c main_v51) (V c main_v54))) := by
  show (cfg2.win 5).cut (grid2.coords t) ((dat2 V c).after 5 t) = _
  rw [after2_5]
  unfold out2_5
  rw [View.canon_unit_zero zero_offsets2]
  simp only [View.ld_unit_zero (S := S8000x128) zero_offsets2, View.ld_unit_zero (S := S128x128) zero_offsets2,
    View.ld_unit_zero (S := S1x128) zero_offsets2]
  rw [wsblock2_eq, wnblock2_eq, bblock2_eq]
  obtain ⟨-, -, -, -, -, -, -, -, -, -, e0, e1⟩ := block_index2 t
  funext j
  have hj0 : (j 0).val < 8000 := (j 0).isLt
  have hj1 : (j 1).val < 128 := (j 1).isLt
  refine (relu_point2 (iblk2 V c 0 t) (iblk2 V c 1 t) (V c main_v49) (V c main_v51) (V c main_v54) (V c main_v34) (V c main_v47) t.val
    (fun y i h0 h1 => hrows2_apply V c t y i h0 h1) (fun y i h0 h1 => aggrows2_apply V c t y i h0 h1)
    j (((cfg2.win 5).blk t).view.emb j) ?_ ?_).trans ?_
  · show win2_5.index t 0 * 8000 + 1 * (j 0).val = 8000 * t.val + (j 0).val
    rw [e0]; omega
  · show win2_5.index t 1 * 128 + 1 * (j 1).val = (j 1).val
    rw [e1]; omega
  · rfl

/-- An index of the second layer's output array is in point t's block iff each coordinate is in the block's range on its axis. -/
theorem mem_rows2 (t : Fin cfg2.N) (i : S200000x128.Idx) :
    i ∈ ((cfg2.win 5).blk t).view.set
      ↔ ∀ a : Fin 2, win2_5.index t a * S8000x128.size a ≤ (i a).val ∧ (i a).val < win2_5.index t a * S8000x128.size a + S8000x128.size a := by
  show i ∈ ((View.whole main_v55).slice (win2_5.rect t)).set ↔ _
  rw [View.set_slice_whole, Rect.mem_set_unit]
  exact Iff.rfl

/-- Row r of the second layer's output is in the block of grid point r / 8000. -/
theorem rows_cover2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  have hN : grid2.N = 25 := N_2
  let t : Fin cfg2.N := ⟨(i 0).val / 8000, by show (i 0).val / 8000 < grid2.N; rw [hN]; omega⟩
  have ht : t.val = (i 0).val / 8000 := rfl
  obtain ⟨-, -, -, -, -, -, -, -, -, -, e0, e1⟩ := block_index2 t
  refine ⟨t, flush2_5 t, ?_⟩
  rw [mem_rows2]
  intro a
  match a with
  | ⟨0, _⟩ =>
    show win2_5.index t 0 * 8000 ≤ (i 0).val ∧ (i 0).val < win2_5.index t 0 * 8000 + 8000
    rw [e0, ht]; omega
  | ⟨1, _⟩ =>
    show win2_5.index t 1 * 128 ≤ (i 1).val ∧ (i 1).val < win2_5.index t 1 * 128 + 128
    rw [e1]; omega

/-- After region 2 its output array is max((h·Ws + agg·Wn) + b, 0) of the arrays the region was entered with. -/
theorem final2 (c : Dev nD) :
    (dat2 V c).arrAt 5 cfg2.N = reluSpec (F := Ideal) (linSpec (F := Ideal) (V c main_v34) (V c main_v47) (V c main_v49) (V c main_v51) (V c main_v54)) :=
  (dat2 V c).arrAt_eq_of_cover 5
    (reluSpec (F := Ideal) (linSpec (F := Ideal) (V c main_v34) (V c main_v47) (V c main_v49) (V c main_v51) (V c main_v54)))
    (fun t _ => flushed2_eq V c t) (rows_cover2)

end Cert.KernelIdeal.Hand

end
-- ==== Proof.Region3.lean ====
/-
  The last layer's output array: (rows of h)·Ws + (rows of agg)·Wn + b with no activation, block by block, the blocks tiling the array.
-/
import proofs.«176199_j57097295233646_1_alg».proof.Proof.Spec
import proofs.«176199_j57097295233646_1_alg».proof.Proof.Gen.KernelIdeal.Frame
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem zero_offsets3 : (![0, 0] : Fin 2 → Nat) = fun _ => 0 := funext fun a => by fin_cases a <;> rfl

/-- The block indices of the six windows at grid point t, decided over the 25 points: the h rows, the agg rows and the output
    rows are block t of their arrays along the rows; the two weight matrices and the bias row are their whole arrays at every
    point. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The h block at point t is rows 8000·t … 8000·t + 7999 of h. -/
theorem hrows3_apply (c : Dev nD) (t : Fin cfg3.N) (y : S8000x128.Idx) (i : S200000x128.Idx)
    (h0 : (i 0).val = 8000 * t.val + (y 0).val) (h1 : (i 1).val = (y 1).val) :
    (iblk3 V c 0 t : Vec Ideal S8000x128 .f32) y = (V c main_v55 : S200000x128.Idx → Elt Ideal .f32) i := by
  obtain ⟨e0, e1, -⟩ := block_index3 t
  unfold iblk3
  rw [View.read_apply]
  show V c main_v55 _ = V c main_v55 _
  congr 1
  funext a
  apply Fin.ext
  match a with
  | ⟨0, _⟩ => show win3_0.index t 0 * 8000 + 1 * (y 0).val = (i 0).val; rw [e0, h0]; omega
  | ⟨1, _⟩ => show win3_0.index t 1 * 128 + 1 * (y 1).val = (i 1).val; rw [e1, h1]; omega

/-- The agg block at point t is the same rows of agg. -/
theorem aggrows3_apply (c : Dev nD) (t : Fin cfg3.N) (y : S8000x128.Idx) (i : S200000x128.Idx)
    (h0 : (i 0).val = 8000 * t.val + (y 0).val) (h1 : (i 1).val = (y 1).val) :
    (iblk3 V c 1 t : Vec Ideal S8000x128 .f32) y = (V c main_v68 : S200000x128.Idx → Elt Ideal .f32) i := by
  obtain ⟨-, -, e0, e1, -⟩ := block_index3 t
  unfold iblk3
  rw [View.read_apply]
  show V c main_v68 _ = V c main_v68 _
  congr 1
  funext a
  apply Fin.ext
  match a with
  | ⟨0, _⟩ => show win3_1.index t 0 * 8000 + 1 * (y 0).val = (i 0).val; rw [e0, h0]; omega
  | ⟨1, _⟩ => show win3_1.index t 1 * 128 + 1 * (y 1).val = (i 1).val; rw [e1, h1]; omega

/-- The Ws block at every point is the whole matrix Ws. -/
theorem wsblock3_eq (c : Dev nD) (t : Fin cfg3.N) :
    (iblk3 V c 2 t : Vec Ideal S128x128 .f32) = (V c main_v70 : S128x128.Idx → Elt Ideal .f32) := by
  obtain ⟨-, -, -, -, e0, e1, -⟩ := block_index3 t
  funext y
  unfold iblk3
  rw [View.read_apply]
  show V c main_v70 _ = V c main_v70 y
  congr 1
  funext a
  apply Fin.ext
  match a with
  | ⟨0, _⟩ => show win3_2.index t 0 * 128 + 1 * (y 0).val = (y 0).val; rw [e0]; omega
  | ⟨1, _⟩ => show win3_2.index t 1 * 128 + 1 * (y 1).val = (y 1).val; rw [e1]; omega

/-- The Wn block at every point is the whole matrix Wn. -/
theorem wnblock3_eq (c : Dev nD) (t : Fin cfg3.N) :
    (iblk3 V c 3 t : Vec Ideal S128x128 .f32) = (V c main_v72 : S128x128.Idx → Elt Ideal .f32) := by
  obtain ⟨-, -, -, -, -, -, e0, e1, -⟩ := block_index3 t
  funext y
  unfold iblk3
  rw [View.read_apply]
  show V c main_v72 _ = V c main_v72 y
  congr 1
  funext a
  apply Fin.ext
  match a with
  | ⟨0, _⟩ => show win3_3.index t 0 * 128 + 1 * (y 0).val = (y 0).val; rw [e0]; omega
  | ⟨1, _⟩ => show win3_3.index t 1 * 128 + 1 * (y 1).val = (y 1).val; rw [e1]; omega

/-- The bias block at every point is the whole bias row. -/
theorem bblock3_eq (c : Dev nD) (t : Fin cfg3.N) :
    (iblk3 V c 4 t : Vec Ideal S1x128 .f32) = (V c main_v75 : S1x128.Idx → Elt Ideal .f32) := by
  obtain ⟨-, -, -, -, -, -, -, -, e0, e1, -⟩ := block_index3 t
  funext y
  unfold iblk3
  rw [View.read_apply]
  show V c main_v75 _ = V c main_v75 y
  congr 1
  funext a
  apply Fin.ext
  match a with
  | ⟨0, _⟩ => show win3_4.index t 0 * 1 + 1 * (y 0).val = (y 0).val; rw [e0]; omega
  | ⟨1, _⟩ => show win3_4.index t 1 * 128 + 1 * (y 1).val = (y 1).val; rw [e1]; omega

/-- What grid point t writes back is its 8000 output rows of (h·Ws + agg·Wn) + b of the arrays the region was entered with. -/
theorem flushed3_eq (c : Dev nD) (t : Fin cfg3.N) :
    (dat3 V c).flushed 5 t
      = ((cfg3.win 5).blk t).view.read (Elt Ideal) (linSpec (F := Ideal) (V c main_v55) (V c main_v68) (V c main_v70) (V c main_v72) (V c main_v75)) := by
  show (cfg3.win 5).cut (grid3.coords t) ((dat3 V c).after 5 t) = _
  rw [after3_5]
  unfold out3_5
  rw [View.canon_unit_zero zero_offsets3]
  simp only [View.ld_unit_zero (S := S8000x128) zero_offsets3, View.ld_unit_zero (S := S128x128) zero_offsets3,
    View.ld_unit_zero (S := S1x128) zero_offsets3]
  rw [wsblock3_eq, wnblock3_eq, bblock3_eq]
  obtain ⟨-, -, -, -, -, -, -, -, -, -, e0, e1⟩ := block_index3 t
  funext j
  have hj0 : (j 0).val < 8000 := (j 0).isLt
  have hj1 : (j 1).val < 128 := (j 1).isLt
  refine (lin_point (iblk3 V c 0 t) (iblk3 V c 1 t) (V c main_v70) (V c main_v72) (V c main_v75) (V c main_v55) (V c main_v68) t.val
    (fun y i h0 h1 => hrows3_apply V c t y i h0 h1) (fun y i h0 h1 => aggrows3_apply V c t y i h0 h1)
    j (((cfg3.win 5).blk t).view.emb j) ?_ ?_).trans ?_
  · show win3_5.index t 0 * 8000 + 1 * (j 0).val = 8000 * t.val + (j 0).val
    rw [e0]; omega
  · show win3_5.index t 1 * 128 + 1 * (j 1).val = (j 1).val
    rw [e1]; omega
  · rfl

/-- An index of the output array is in point t's block iff each coordinate is in the block's range on its axis. -/
theorem mem_rows3 (t : Fin cfg3.N) (i : S200000x128.Idx) :
    i ∈ ((cfg3.win 5).blk t).view.set
      ↔ ∀ a : Fin 2, win3_5.index t a * S8000x128.size a ≤ (i a).val ∧ (i a).val < win3_5.index t a * S8000x128.size a + S8000x128.size a := by
  show i ∈ ((View.whole main_v76).slice (win3_5.rect t)).set ↔ _
  rw [View.set_slice_whole, Rect.mem_set_unit]
  exact Iff.rfl

/-- Row r of the output is in the block of grid point r / 8000. -/
theorem rows_cover3 (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  have hN : grid3.N = 25 := N_3
  let t : Fin cfg3.N := ⟨(i 0).val / 8000, by show (i 0).val / 8000 < grid3.N; rw [hN]; omega⟩
  have ht : t.val = (i 0).val / 8000 := rfl
  obtain ⟨-, -, -, -, -, -, -, -, -, -, e0, e1⟩ := block_index3 t
  refine ⟨t, flush3_5 t, ?_⟩
  rw [mem_rows3]
  intro a
  match a with
  | ⟨0, _⟩ =>
    show win3_5.index t 0 * 8000 ≤ (i 0).val ∧ (i 0).val < win3_5.index t 0 * 8000 + 8000
    rw [e0, ht]; omega
  | ⟨1, _⟩ =>
    show win3_5.index t 1 * 128 ≤ (i 1).val ∧ (i 1).val < win3_5.index t 1 * 128 + 128
    rw [e1]; omega

/-- After region 3 its output array is (h·Ws + agg·Wn) + b of the arrays the region was entered with. -/
theorem final3 (c : Dev nD) :
    (dat3 V c).arrAt 5 cfg3.N = linSpec (F := Ideal) (V c main_v55) (V c main_v68) (V c main_v70) (V c main_v72) (V c main_v75) :=
  (dat3 V c).arrAt_eq_of_cover 5 (linSpec (F := Ideal) (V c main_v55) (V c main_v68) (V c main_v70) (V c main_v72) (V c main_v75))
    (fun t _ => flushed3_eq V c t) (rows_cover3)

end Cert.KernelIdeal.Hand

end
-- ==== Proof.Fold.lean ====
/-
  The idealized kernel's result array is the reference's result, stage by stage.

  @main of the kernel program is four kernel regions among stretches of host operations. Its buffer contents at the region
  boundaries are a fold through @main; this module reads that fold at the buffers the computation flows through and identifies each
  with the reference program's value of the same stage, as a function of the seven argument arrays:
    * the first stretch computes the edges' source and destination lists and 1 / max(in-degree, 1) by the same operations as the reference;
    * the projection kernel leaves tanh(x·W_in + b_in), the reference's h (its bias reaches the kernel reshaped to a row, which is the
      reference's broadcast of it);
    * before each layer's kernel the host gathers h by source, scatter-adds by destination and multiplies by the reciprocal degree —
      the reference's own operations on an h already identified with the reference's — and slices the layer's weights and bias;
    * each layer's kernel leaves (h·W_self + agg·W_neigh) + b, with max(·, 0) in the first two layers: the reference's next h.
  No law of the extended reals is used beyond those inside the region lemmas: every step here is the same operation applied to equal
  operands.
-/
import proofs.«176199_j57097295233646_1_alg».proof.Proof.Region0
import proofs.«176199_j57097295233646_1_alg».proof.Proof.Region1
import proofs.«176199_j57097295233646_1_alg».proof.Proof.Region2
import proofs.«176199_j57097295233646_1_alg».proof.Proof.Region3
import proofs.«176199_j57097295233646_1_alg».proof.Proof.Gen.ReferenceIdeal.Read
import Idealize.ShloMosaic.Lib.StableHlo.Run

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## What the first stretch of host operations leaves: the arguments untouched, the bias as a row, the edge lists and the
    reciprocal degrees as the reference computes them -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-- The bias of the projection reaches its kernel as a [1,128] row: the reshape of the vector is its broadcast along a new axis. -/
theorem W1_v12 (c : Dev nD) : W1 m ρ c (Proc.devRef .tc main_v12)
    = broadcastInDim S1x128 ![1] Cert.ReferenceIdeal.Facts₀.bcast_S128_S1x128_1 (m ((c : Thread nD τ).loc main_arg3)) := by
  show StableHlo.after hostOps0 (W0 m ρ c) (Proc.devRef .tc main_v12) = _
  after_results
  exact row_reshape_eq_broadcast _

/-- The source node of every edge, as the reference slices it out of the edge list. -/
theorem W1_v1 (c : Dev nD) : W1 m ρ c (Proc.devRef .tc main_v1) = val_main_v6 (F := Ideal) (m ((c : Thread nD τ).loc main_arg1)) := by
  show StableHlo.after hostOps0 (W0 m ρ c) (Proc.devRef .tc main_v1) = _
  after_results
  rfl
/-- The destination node of every edge. -/
theorem W1_v3 (c : Dev nD) : W1 m ρ c (Proc.devRef .tc main_v3) = val_main_v8 (F := Ideal) (m ((c : Thread nD τ).loc main_arg1)) := by
  show StableHlo.after hostOps0 (W0 m ρ c) (Proc.devRef .tc main_v3) = _
  after_results
  rfl
/-- 1 / max(in-degree, 1) of every node: the same scatter of ones, maximum and quotient in both programs. -/
theorem W1_v11 (c : Dev nD) : W1 m ρ c (Proc.devRef .tc main_v11) = val_main_v16 (F := Ideal) (m ((c : Thread nD τ).loc main_arg1)) := by
  show StableHlo.after hostOps0 (W0 m ρ c) (Proc.devRef .tc main_v11) = _
  after_results
  rfl

/-! ## After the projection kernel -/

/-- The projection kernel's output is the reference's tanh(x·W_in + b_in). -/
theorem W2_v13 (c : Dev nD) : W2 m ρ c (Proc.devRef .tc main_v13)
    = val_main_v4 (F := Ideal) (m ((c : Thread nD τ).loc main_arg0)) (m ((c : Thread nD τ).loc main_arg2)) (m ((c : Thread nD τ).loc main_arg3)) := by
  refine ((W2_arr m ρ c 3).trans (final0 (V1 m ρ) c)).trans ?_
  show projSpec (F := Ideal) (W1 m ρ c (Proc.devRef .tc main_arg0)) (W1 m ρ c (Proc.devRef .tc main_arg2)) (W1 m ρ c (Proc.devRef .tc main_v12)) = _
  rw [W1_arg0, W1_arg2, W1_v12]
  rfl

/-- Nothing the later layers read of the first stretch's results is touched by the projection kernel. -/
theorem W2_v1 (c : Dev nD) : W2 m ρ c (Proc.devRef .tc main_v1) = val_main_v6 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v8 (F := Ideal) (m ((c : Thread nD τ).loc main_arg1)) :=
  (W2_of_ne m ρ c main_v3 (by decide)).trans (W1_v3 m ρ c)
theorem W2_v11 (c : Dev nD) : W2 m ρ c (Proc.devRef .tc main_v11) = val_main_v16 (F := Ideal) (m ((c : Thread nD τ).loc main_arg1)) :=
  (W2_of_ne m ρ c main_v11 (by decide)).trans (W1_v11 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## The first layer: the host's gather, segment sum and mean, then the kernel -/

/-- The mean of the neighbours' features entering the first layer's kernel is the reference's: the same gather by source,
    scatter-add by destination and product with the reciprocal degree, applied to equal features. -/
theorem W3_v26 (c : Dev nD) : W3 m ρ c (Proc.devRef .tc main_v26)
    = val_main_v29 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v26) = _
  after_results_simp
  rw [W2_v13, W2_v1, W2_v3, W2_v11]
  rfl
theorem W3_v13 (c : Dev nD) : W3 m ρ c (Proc.devRef .tc main_v13)
    = val_main_v4 (F := Ideal) (m ((c : Thread nD τ).loc main_arg0)) (m ((c : Thread nD τ).loc main_arg2)) (m ((c : Thread nD τ).loc main_arg3)) := by
  show StableHlo.after hostOps1 (W2 m ρ c) (Proc.devRef .tc main_v13) = _
  after_results
  exact W2_v13 m ρ c
theorem W3_v28 (c : Dev nD) : W3 m ρ c (Proc.devRef .tc main_v28) = val_main_v31 (F := Ideal) (m ((c : Thread nD τ).loc main_arg4)) := by
  show StableHlo.after hostOps1 (W2 m ρ c) (Proc.devRef .tc main_v28) = _
  after_results
  rw [W2_arg4]
  rfl
theorem W3_v30 (c : Dev nD) : W3 m ρ c (Proc.devRef .tc main_v30) = val_main_v34 (F := Ideal) (m ((c : Thread nD τ).loc main_arg5)) := by
  show StableHlo.after hostOps1 (W2 m ρ c) (Proc.devRef .tc main_v30) = _
  after_results
  rw [W2_arg5]
  rfl
theorem W3_v33 (c : Dev nD) : W3 m ρ c (Proc.devRef .tc main_v33) = val_main_v39 (F := Ideal) (m ((c : Thread nD τ).loc main_arg6)) := by
  show StableHlo.after hostOps1 (W2 m ρ c) (Proc.devRef .tc main_v33) = _
  after_results
  rw [W2_arg6]
  exact row_reshape_eq_broadcast _

/-- The first layer's kernel output is the reference's relu(h·W_self[0] + agg·W_neigh[0] + b[0]). -/
theorem W4_v34 (c : Dev nD) : W4 m ρ c (Proc.devRef .tc main_v34)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W4_arr m ρ c 5).trans (final1 (V3 m ρ) c)).trans ?_
  show reluSpec (F := Ideal) (linSpec (F := Ideal) (W3 m ρ c (Proc.devRef .tc main_v13)) (W3 m ρ c (Proc.devRef .tc main_v26)) (W3 m ρ c (Proc.devRef .tc main_v28)) (W3 m ρ c (Proc.devRef .tc main_v30)) (W3 m ρ c (Proc.devRef .tc main_v33))) = _
  rw [W3_v13, W3_v26, W3_v28, W3_v30, W3_v33]
  rfl

/-- The first stretch's results and the weights are not written by the first layer's host operations nor by its kernel. -/
theorem W4_v1 (c : Dev nD) : W4 m ρ c (Proc.devRef .tc main_v1) = val_main_v6 (F := Ideal) (m ((c : Thread nD τ).loc main_arg1)) :=
  (W4_of_ne m ρ c main_v1 (by decide)).trans (by
    show StableHlo.after hostOps1 (W2 m ρ c) (Proc.devRef .tc main_v1) = _
    after_results
    exact W2_v1 m ρ c)
theorem W4_v3 (c : Dev nD) : W4 m ρ c (Proc.devRef .tc main_v3) = val_main_v8 (F := Ideal) (m ((c : Thread nD τ).loc main_arg1)) :=
  (W4_of_ne m ρ c main_v3 (by decide)).trans (by
    show StableHlo.after hostOps1 (W2 m ρ c) (Proc.devRef .tc main_v3) = _
    after_results
    exact W2_v3 m ρ c)
theorem W4_v11 (c : Dev nD) : W4 m ρ c (Proc.devRef .tc main_v11) = val_main_v16 (F := Ideal) (m ((c : Thread nD τ).loc main_arg1)) :=
  (W4_of_ne m ρ c main_v11 (by decide)).trans (by
    show StableHlo.after hostOps1 (W2 m ρ c) (Proc.devRef .tc main_v11) = _
    after_results
    exact W2_v11 m ρ c)
theorem W4_arg4 (c : Dev nD) : W4 m ρ c (Proc.devRef .tc main_arg4) = m ((c : Thread nD τ).loc main_arg4) :=
  (W4_of_ne m ρ c main_arg4 (by decide)).trans (by
    show StableHlo.after hostOps1 (W2 m ρ c) (Proc.devRef .tc main_arg4) = _
    after_results
    exact W2_arg4 m ρ c)
theorem W4_arg5 (c : Dev nD) : W4 m ρ c (Proc.devRef .tc main_arg5) = m ((c : Thread nD τ).loc main_arg5) :=
  (W4_of_ne m ρ c main_arg5 (by decide)).trans (by
    show StableHlo.after hostOps1 (W2 m ρ c) (Proc.devRef .tc main_arg5) = _
    after_results
    exact W2_arg5 m ρ c)
theorem W4_arg6 (c : Dev nD) : W4 m ρ c (Proc.devRef .tc main_arg6) = m ((c : Thread nD τ).loc main_arg6) :=
  (W4_of_ne m ρ c main_arg6 (by decide)).trans (by
    show StableHlo.after hostOps1 (W2 m ρ c) (Proc.devRef .tc main_arg6) = _
    after_results
    exact W2_arg6 m ρ c)

/-! ## The second layer -/

theorem W5_v47 (c : Dev nD) : W5 m ρ c (Proc.devRef .tc main_v47) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v47) = _
  after_results_simp
  rw [W4_v34, W4_v1, W4_v3, W4_v11]
  rfl
theorem W5_v34 (c : Dev nD) : W5 m ρ c (Proc.devRef .tc main_v34) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v34) = _
  after_results
  exact W4_v34 m ρ c
theorem W5_v49 (c : Dev nD) : W5 m ρ c (Proc.devRef .tc main_v49) = val_main_v57 (F := Ideal) (m ((c : Thread nD τ).loc main_arg4)) := by
  show StableHlo.after hostOps2 (W4 m ρ c) (Proc.devRef .tc main_v49) = _
  after_results
  rw [W4_arg4]
  rfl
theorem W5_v51 (c : Dev nD) : W5 m ρ c (Proc.devRef .tc main_v51) = val_main_v60 (F := Ideal) (m ((c : Thread nD τ).loc main_arg5)) := by
  show StableHlo.after hostOps2 (W4 m ρ c) (Proc.devRef .tc main_v51) = _
  after_results
  rw [W4_arg5]
  rfl
theorem W5_v54 (c : Dev nD) : W5 m ρ c (Proc.devRef .tc main_v54) = val_main_v65 (F := Ideal) (m ((c : Thread nD τ).loc main_arg6)) := by
  show StableHlo.after hostOps2 (W4 m ρ c) (Proc.devRef .tc main_v54) = _
  after_results
  rw [W4_arg6]
  exact row_reshape_eq_broadcast _

/-- The second layer's kernel output is the reference's relu(h·W_self[1] + agg·W_neigh[1] + b[1]). -/
theorem W6_v55 (c : Dev nD) : W6 m ρ c (Proc.devRef .tc main_v55) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m ρ c 5).trans (final2 (V5 m ρ) c)).trans ?_
  show reluSpec (F := Ideal) (linSpec (F := Ideal) (W5 m ρ c (Proc.devRef .tc main_v34)) (W5 m ρ c (Proc.devRef .tc main_v47)) (W5 m ρ c (Proc.devRef .tc main_v49)) (W5 m ρ c (Proc.devRef .tc main_v51)) (W5 m ρ c (Proc.devRef .tc main_v54))) = _
  rw [W5_v34, W5_v47, W5_v49, W5_v51, W5_v54]
  rfl

theorem W6_v1 (c : Dev nD) : W6 m ρ c (Proc.devRef .tc main_v1) = val_main_v6 (F := Ideal) (m ((c : Thread nD τ).loc main_arg1)) :=
  (W6_of_ne m ρ c main_v1 (by decide)).trans (by
    show StableHlo.after hostOps2 (W4 m ρ c) (Proc.devRef .tc main_v1) = _
    after_results
    exact W4_v1 m ρ c)
theorem W6_v3 (c : Dev nD) : W6 m ρ c (Proc.devRef .tc main_v3) = val_main_v8 (F := Ideal) (m ((c : Thread nD τ).loc main_arg1)) :=
  (W6_of_ne m ρ c main_v3 (by decide)).trans (by
    show StableHlo.after hostOps2 (W4 m ρ c) (Proc.devRef .tc main_v3) = _
    after_results
    exact W4_v3 m ρ c)
theorem W6_v11 (c : Dev nD) : W6 m ρ c (Proc.devRef .tc main_v11) = val_main_v16 (F := Ideal) (m ((c : Thread nD τ).loc main_arg1)) :=
  (W6_of_ne m ρ c main_v11 (by decide)).trans (by
    show StableHlo.after hostOps2 (W4 m ρ c) (Proc.devRef .tc main_v11) = _
    after_results
    exact W4_v11 m ρ c)
theorem W6_arg4 (c : Dev nD) : W6 m ρ c (Proc.devRef .tc main_arg4) = m ((c : Thread nD τ).loc main_arg4) :=
  (W6_of_ne m ρ c main_arg4 (by decide)).trans (by
    show StableHlo.after hostOps2 (W4 m ρ c) (Proc.devRef .tc main_arg4) = _
    after_results
    exact W4_arg4 m ρ c)
theorem W6_arg5 (c : Dev nD) : W6 m ρ c (Proc.devRef .tc main_arg5) = m ((c : Thread nD τ).loc main_arg5) :=
  (W6_of_ne m ρ c main_arg5 (by decide)).trans (by
    show StableHlo.after hostOps2 (W4 m ρ c) (Proc.devRef .tc main_arg5) = _
    after_results
    exact W4_arg5 m ρ c)
theorem W6_arg6 (c : Dev nD) : W6 m ρ c (Proc.devRef .tc main_arg6) = m ((c : Thread nD τ).loc main_arg6) :=
  (W6_of_ne m ρ c main_arg6 (by decide)).trans (by
    show StableHlo.after hostOps2 (W4 m ρ c) (Proc.devRef .tc main_arg6) = _
    after_results
    exact W4_arg6 m ρ c)

/-! ## The last layer -/

theorem W7_v68 (c : Dev nD) : W7 m ρ c (Proc.devRef .tc main_v68) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v68) = _
  after_results_simp
  rw [W6_v55, W6_v1, W6_v3, W6_v11]
  rfl
theorem W7_v55 (c : Dev nD) : W7 m ρ c (Proc.devRef .tc main_v55) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v55) = _
  after_results
  exact W6_v55 m ρ c
theorem W7_v70 (c : Dev nD) : W7 m ρ c (Proc.devRef .tc main_v70) = val_main_v83 (F := Ideal) (m ((c : Thread nD τ).loc main_arg4)) := by
  show StableHlo.after hostOps3 (W6 m ρ c) (Proc.devRef .tc main_v70) = _
  after_results
  rw [W6_arg4]
  rfl
theorem W7_v72 (c : Dev nD) : W7 m ρ c (Proc.devRef .tc main_v72) = val_main_v86 (F := Ideal) (m ((c : Thread nD τ).loc main_arg5)) := by
  show StableHlo.after hostOps3 (W6 m ρ c) (Proc.devRef .tc main_v72) = _
  after_results
  rw [W6_arg5]
  rfl
theorem W7_v75 (c : Dev nD) : W7 m ρ c (Proc.devRef .tc main_v75) = val_main_v91 (F := Ideal) (m ((c : Thread nD τ).loc main_arg6)) := by
  show StableHlo.after hostOps3 (W6 m ρ c) (Proc.devRef .tc main_v75) = _
  after_results
  rw [W6_arg6]
  exact row_reshape_eq_broadcast _

/-- THE RESULT: what the last layer's kernel leaves in the result array is the reference's h·W_self[2] + agg·W_neigh[2] + b[2],
    every earlier stage having been identified with the reference's on the way. -/
theorem W8_v76 (c : Dev nD) : W8 m ρ c (Proc.devRef .tc main_v76) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W8_arr m ρ c 5).trans (final3 (V7 m ρ) c)).trans ?_
  show linSpec (F := Ideal) (W7 m ρ c (Proc.devRef .tc main_v55)) (W7 m ρ c (Proc.devRef .tc main_v68)) (W7 m ρ c (Proc.devRef .tc main_v70)) (W7 m ρ c (Proc.devRef .tc main_v72)) (W7 m ρ c (Proc.devRef .tc main_v75)) = _
  rw [W7_v55, W7_v68, W7_v70, W7_v72, W7_v75]
  rfl

end Cert.KernelIdeal.Hand

end
-- ==== Proof.lean ====
/-
  A three-layer mean-aggregation graph network on 200000 nodes and 600000 edges: h = tanh(x·W_in + b_in), then three times
  agg = (segment sum over incoming edges of h at the edge's source) / max(in-degree, 1) and h ← h·W_self[i] + agg·W_neigh[i] + b[i],
  with max(·, 0) after the first two layers. The kernel program computes the four dense stages in kernels that take 8000 node rows
  per grid point (operands narrowed to bf16 before the products, which over the extended reals changes nothing) and leaves the
  gathers and scatter-adds to the host, exactly as the reference states them.

  The claim: both word-level and idealized kernel programs run and keep their arguments (the generated frames); the reference runs
  and keeps its arguments (its generated run); the idealization rewrote nothing; and over the extended reals the idealized kernel's
  result array equals the reference's. For the last, the kernel program's run is restated with its result array named at what the
  fold through @main leaves there, that fold is identified stage by stage with the reference's staged value (every region's output
  array being one whole-array function of the arrays it was entered with, since its row blocks tile the array), and the reference's run
  ends at the same staged value of arguments that agree.
-/
import proofs.«176199_j57097295233646_1_alg».proof.Defs
import proofs.«176199_j57097295233646_1_alg».proof.Proof.Gen.Kernel
import proofs.«176199_j57097295233646_1_alg».proof.Proof.Gen.Kernel.Frame
import proofs.«176199_j57097295233646_1_alg».proof.Proof.Gen.KernelIdeal
import proofs.«176199_j57097295233646_1_alg».proof.Proof.Gen.KernelIdeal.Frame
import proofs.«176199_j57097295233646_1_alg».proof.Proof.Gen.ReferenceIdeal
import proofs.«176199_j57097295233646_1_alg».proof.Proof.Gen.ReferenceIdeal.Run
import proofs.«176199_j57097295233646_1_alg».proof.Proof.Gen.ReferenceIdeal.Read
import proofs.«176199_j57097295233646_1_alg».proof.Proof.Gen.Pre_finite_inputs
import proofs.«176199_j57097295233646_1_alg».proof.Proof.KernelRun
import proofs.«176199_j57097295233646_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the reference's staged value of the arguments in the result array: the
    kernel program by the fold through its four regions, the reference by its run, the arguments agreeing. -/
theorem algebraic : Cert.algebraic_KernelIdeal_ReferenceIdeal := by
  intro m ρ m' ρ' _ hagree
  refine ⟨fun c => Cert.ReferenceIdeal.Read.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.W8_v76 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq]
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
